-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S512x1024 : Shape := ⟨2, ![512, 1024]⟩
abbrev S1x1 : Shape := ⟨2, ![1, 1]⟩
abbrev S512x8192 : Shape := ⟨2, ![512, 8192]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 7
  | .vmem => 14
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S1x1, .f32⟩
  | .hbm, ⟨6, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x8192, .f32⟩
  | .local _ .vmem, ⟨11, _⟩ => ⟨S512x8192, .f32⟩
  | .local _ .vmem, ⟨12, _⟩ => ⟨S1x1, .f32⟩
  | .local _ .vmem, ⟨13, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_7 : BitVec 32 := 0#32
  let v15 : BitVec 1 := Scalar.cmpi .ne v14 c0_i32_7
  v15

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S512x1024_S512x1024_0_0 : ∀ a, (![0, 0] : Fin 2 → Nat) a + S512x1024.size a ≤ S512x1024.size a
  h_S512x1024 : 0 < S512x1024.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .f32 = 32 ∨ (Rect.block (s := S4096x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x8192.size a
  hwx0_2 : ∀ i : grid0.Coords, EltTy.bits .f32 = 32 ∨ (Rect.block (s := S4096x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S4096x8192.size a
  hwx1_0 : ∀ i : grid1.Coords, EltTy.bits .f32 = 32 ∨ (Rect.block (s := S4096x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.Kernel.Elementwise.lean ====
/- The first kernel region: on an 8 × 8 grid of 512 × 1024 tiles, each point reads its tile of the input and
   writes four tiles — the tile plus one, minus one, times two and divided by two — into the same position of
   four result arrays. Nothing is kept between points, so what a point leaves in each result's buffer is a
   function of the input tile alone. Stated for any reading of the floats, at the contents `V` the region is
   entered from. -/
import proofs.«121390_j73667279061090_1_alg».proof.Proof.Gen.Kernel.Launch
import proofs.«121390_j73667279061090_1_alg».proof.Proof.Gen.Kernel.Skeleton
import proofs.«121390_j73667279061090_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated where the regions are put in order
variable (V : (c : Dev nD) → (b : Ref sig .tc) → Buf (Elt F) ((c : Thread nD τ).loc b))

/-! ## The tile a point works on -/

/-- Window `w`'s 512 × 1024 tile at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's tile whenever the body runs: the window is fetched at every point,
    never cut and never idle. -/
theorem before_input_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-! ## What the body leaves in each result's buffer -/

/-- The whole 512 × 1024 buffer as one rectangle: every load and store of the body goes through it. -/
abbrev whole : Rect S512x1024 := Rect.unit (s := S512x1024) ![0, 0] S512x1024.size inb_S512x1024_S512x1024_0_0

/-- The tile plus one, as the one store into the first result's buffer leaves it. -/
def plusOne (x : Vec F S512x1024 .f32) : Vec F S512x1024 .f32 := View.canon [⟨whole, k0_pay1 (View.ld x whole)⟩]
/-- The tile minus one. -/
def minusOne (x : Vec F S512x1024 .f32) : Vec F S512x1024 .f32 := View.canon [⟨whole, k0_pay2 (View.ld x whole)⟩]
/-- The tile times two. -/
def doubled (x : Vec F S512x1024 .f32) : Vec F S512x1024 .f32 := View.canon [⟨whole, k0_pay3 (View.ld x whole)⟩]
/-- The tile divided by two. -/
def halved (x : Vec F S512x1024 .f32) : Vec F S512x1024 .f32 := View.canon [⟨whole, k0_pay4 (View.ld x whole)⟩]

/-- One store through the whole rectangle covers the buffer. -/
theorem whole_covers (p : Vec F S512x1024 .f32) (y : S512x1024.Idx) :
    ∃ pc ∈ ([⟨whole, p⟩] : List (View.Piece (Elt F) S512x1024 .f32)), y ∈ pc.1.set :=
  View.cover_of_tiled [⟨whole, p⟩] S512x1024.size (by rfl) y

/-! ## The body's triple -/

set_option maxHeartbeats 2000000 in
/-- On whole staging buffers, the input's at `x` and the four results' at anything, the body runs to the input's
    unchanged and the results' at `x + 1`, `x - 1`, `x * 2`, `x / 2` (each as its store leaves it). -/
theorem sound_elementwise (c : Dev nD) (E : Set ℕ) (i : grid0.Coords)
    (a2 : Memref sig .tc .vmem S512x1024 .f32) (h2 : a2.IsWhole) (a3 : Memref sig .tc .vmem S512x1024 .f32) (h3 : a3.IsWhole)
    (a4 : Memref sig .tc .vmem S512x1024 .f32) (h4 : a4.IsWhole) (a5 : Memref sig .tc .vmem S512x1024 .f32) (h5 : a5.IsWhole)
    (a6 : Memref sig .tc .vmem S512x1024 .f32) (h6 : a6.IsWhole)
    (x : Vec F S512x1024 .f32) (K : PUnit → sProp 𝕄) :
    iprop(owns (c : Thread nD τ) a2 fullShare x ∗ (∃ d, owns (c : Thread nD τ) a3 fullShare d) ∗ (∃ d, owns (c : Thread nD τ) a4 fullShare d)
        ∗ (∃ d, owns (c : Thread nD τ) a5 fullShare d) ∗ (∃ d, owns (c : Thread nD τ) a6 fullShare d)
        ∗ (iprop(owns (c : Thread nD τ) a2 fullShare x ∗ owns (c : Thread nD τ) a3 fullShare (plusOne x) ∗ owns (c : Thread nD τ) a4 fullShare (minusOne x)
            ∗ owns (c : Thread nD τ) a5 fullShare (doubled x) ∗ owns (c : Thread nD τ) a6 fullShare (halved x)) -∗ K ⟨⟩))
      ⊢ wp frame (wpE (defs₀ (F := F)) Variants.none c none) E (cc0__elementwise_kernel i a2 h2 a3 h3 a4 h4 a5 h5 a6 h6) K := by
  simp only [cc0__elementwise_kernel_eq_skeleton]; unfold cc0__elementwise_kernel_skel
  unfold owns
  iintro ⟨⟨%f2, %hf2, H2⟩, ⟨%d3, %f3, -, H3⟩, ⟨%d4, %f4, -, H4⟩, ⟨%d5, %f5, -, H5⟩, ⟨%d6, %f6, -, H6⟩, Hk⟩
  subst hf2
  sl_exec
  sl_step
  iapply Hk
  isplitl [H2]
  · iexists f2; isplitr; · ipureintro; rfl
    iexact H2
  isplitl [H3]
  · iexists _; isplitr
    swap; · iexact H3
    ipureintro; exact View.read_writes_eq_canon _ _ _ (whole_covers _)
  isplitl [H4]
  · iexists _; isplitr
    swap; · iexact H4
    ipureintro; exact View.read_writes_eq_canon _ _ _ (whole_covers _)
  isplitl [H5]
  · iexists _; isplitr
    swap; · iexact H5
    ipureintro; exact View.read_writes_eq_canon _ _ _ (whole_covers _)
  iexists _; isplitr
  swap; · iexact H6
  ipureintro; exact View.read_writes_eq_canon _ _ _ (whole_covers _)

/-! ## The pipeline's proof data -/

/-- Pipeline 0's proof data on core `c`: the arrays as the region finds them; after the body at point `t` the input's
    buffer still at its tile and the four results' at the tile plus one, minus one, doubled, halved; the invariant only
    the scoped buffers the pipeline does not stage and the generator register, both untouched; nothing owed. -/
def dat0 (c : Dev nD) : Dat τ (Elt F) Unit ℕ (UR sig nD τ) ℕ cfg0 c where
  A w := V c (Pipeline.arrRef spec0 w)
  after w t := match w with
    | ⟨0, _⟩ => tile V c 0 t
    | ⟨1, _⟩ => plusOne (tile V c 0 t)
    | ⟨2, _⟩ => minusOne (tile V c 0 t)
    | ⟨3, _⟩ => doubled (tile V c 0 t)
    | ⟨4, _⟩ => halved (tile V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile V c 0 t := by dsimp only [dat0]
theorem after0_1 (c : Dev nD) (t : Fin cfg0.N) : (dat0 V c).after 1 t = plusOne (tile V c 0 t) := by dsimp only [dat0]
theorem after0_2 (c : Dev nD) (t : Fin cfg0.N) : (dat0 V c).after 2 t = minusOne (tile V c 0 t) := by dsimp only [dat0]
theorem after0_3 (c : Dev nD) (t : Fin cfg0.N) : (dat0 V c).after 3 t = doubled (tile V c 0 t) := by dsimp only [dat0]
theorem after0_4 (c : Dev nD) (t : Fin cfg0.N) : (dat0 V c).after 4 t = halved (tile V c 0 t) := by dsimp only [dat0]

theorem before0_0 (c : Dev nD) (t : Fin cfg0.N) (d) : (dat0 V c).before 0 t d = tile V c 0 t :=
  before_input_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_elementwise c Set.univ _ _ _ _ _ _ _ _ _ _ _ (tile V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Accumulate.lean ====
/- The second kernel region: on a grid of 8 points, point `t` reads rows 512·t … 512·t + 511 of the input (a 512 × 8192
   strip), sums each row, sums the 512 row sums, and adds the result to a 1 × 1 accumulator kept in scratch memory between
   points; the first point clears the accumulator before adding, and the last point copies it to the 1 × 1 result.
   Here: what the accumulator holds after each point, as a recursion over the strips; the invariant that carries it from
   one point to the next; and the body's obligation. Stated for any reading of the floats, at the contents `V` the region is
   entered from. -/
import proofs.«121390_j73667279061090_1_alg».proof.Proof.Gen.Kernel.Launch
import proofs.«121390_j73667279061090_1_alg».proof.Proof.Gen.Kernel.Skeleton
import proofs.«121390_j73667279061090_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The strip a point works on -/

/-- Window `w`'s block at grid point `t` (for the input: the strip of 512 rows), read off its array as the region finds it. -/
def strip (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the point's strip whenever the body runs: fetched at every point, never cut, never idle. -/
theorem before_strip_of {c : Dev nD} (dat : Dat τ (Elt F) Unit ℕ (UR sig nD τ) ℕ cfg1 c) (hA : dat.A 0 = V c (Pipeline.arrRef spec1 0))
    (hafter : ∀ t, dat.after 0 t = strip V c 0 t) (t : Fin cfg1.N) (d) : dat.before 0 t d = strip V c 0 t :=
  (dat.before_in_eq_fetched 0 rfl (fun _ => rfl) (fun _ _ _ => rfl) (fun t => by rw [hafter]; unfold Dat.blockOf strip; rw [hA]; try rfl) t d).trans
    (by unfold Dat.fetched Dat.blockOf strip; rw [hA]; try rfl)

/-! ## The running total -/

/-- One point's step: the strip's total (row sums, then their sum) added to the accumulator `a`. -/
def addStrip (x : Vec F S512x8192 .f32) (a : Vec F S1x1 .f32) : Vec F S1x1 .f32 := k1_pay2 x a

/-- The cleared accumulator the first point starts from. -/
def cleared : Vec F S1x1 .f32 := k1_pay1

/-- What the accumulator holds after the body at point `n`: the strips' totals of points `0 … n` added up from the cleared
    accumulator, in point order. -/
def accAt (c : Dev nD) : (n : ℕ) → n < cfg1.N → Vec F S1x1 .f32
  | 0, h => addStrip (strip V c 0 ⟨0, h⟩) cleared
  | n + 1, h => addStrip (strip V c 0 ⟨n + 1, h⟩) (accAt c n (Nat.lt_of_succ_lt h))

theorem accAt_zero (c : Dev nD) (h : 0 < cfg1.N) : accAt V c 0 h = addStrip (strip V c 0 ⟨0, h⟩) cleared := rfl
theorem accAt_succ (c : Dev nD) (n : ℕ) (h : n + 1 < cfg1.N) :
    accAt V c (n + 1) h = addStrip (strip V c 0 ⟨n + 1, h⟩) (accAt V c n (Nat.lt_of_succ_lt h)) := rfl

/-! ## The branch conditions, and where the result's window is idle -/

/-- The first `scf.if`'s condition (clear the accumulator), from the grid coordinate. -/
abbrev isFirst (i : grid1.Coords) : Prop := (Scalar.cmpi .ne (Scalar.extui (Scalar.cmpi .eq (BitVec.ofNat 32 (i 0).val) 0#32)) 0#32) = 1#1
/-- The second `scf.if`'s condition (copy the accumulator out). -/
abbrev isLast (i : grid1.Coords) : Prop := k1_cond2 i = 1#1

theorem isFirst_iff : ∀ t : Fin cfg1.N, isFirst (grid1.coords t) ↔ t.val = 0 :=
  (by decide +kernel : ∀ t : Fin grid1.N, isFirst (grid1.coords t) ↔ t.val = 0)
theorem isLast_iff : ∀ t : Fin cfg1.N, isLast (grid1.coords t) ↔ t.val = 7 :=
  (by decide +kernel : ∀ t : Fin grid1.N, isLast (grid1.coords t) ↔ t.val = 7)

/-- The input window is never idle. -/
theorem live_input : ∀ t : Fin cfg1.N, cfg1.idle 0 (grid1.coords t) = false := by decide +kernel
/-- Before the last point the result's window is idle (nothing is stored into it) and is not written back. -/
theorem idle_result : ∀ t : Fin cfg1.N, ¬isLast (grid1.coords t) → cfg1.idle 1 (grid1.coords t) = true := by decide +kernel
theorem noFlush_result : ∀ t : Fin cfg1.N, ¬isLast (grid1.coords t) → (cfg1.win 1).flush t = false := by decide +kernel
/-- At the last point it is live. -/
theorem live_result : ∀ t : Fin cfg1.N, isLast (grid1.coords t) → cfg1.idle 1 (grid1.coords t) = false := by decide +kernel

/-! ## The invariant between points -/

/-- The accumulator: a whole scoped 1 × 1 buffer of the kernel's own, passed beside the windows. -/
abbrev accM : Memref sig .tc .vmem S1x1 .f32 := Memref.whole cc1_scratch0

/-- The scoped buffers of the core this pipeline does not stage — the first region's ten staging buffers, each whole at some
    contents — with the accumulator's place `S` last: what the invariant holds besides the generator register. -/
def scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ S)

/-- The class's invariant with the accumulator as a memref owned at some contents. -/
theorem PhiA1_eq (c : Dev nD) :
    (Pipeline.ΦA spec1 c : sProp 𝕄)
      = iprop(scopedWith c (iprop(∃ d, owns (c : Thread nD τ) accM fullShare d)) ∗ (∃ r, prngReg c r)) := by
  unfold Pipeline.ΦA scopedWith; rw [scopedRest1_eq]; simp only [accM, owns_whole]; try rfl

/-- The invariant before position `n`: before the first point every scoped buffer at anything; afterwards the accumulator at
    the running total the point before left, the other scoped buffers at anything; the generator register at some state. -/
def PhiS (c : Dev nD) : (n : ℕ) → n ≤ cfg1.N → sProp 𝕄
  | 0, _ => Pipeline.ΦA spec1 c
  | n + 1, hn => iprop(scopedWith c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) accM fullShare (accAt V c n hn)) ∗ (∃ r, prngReg c r)) := rfl

theorem PhiS_pos (c : Dev nD) (n : ℕ) (h : n ≤ cfg1.N) (hz : n ≠ 0) :
    PhiS V c n h = iprop(scopedWith c (owns (c : Thread nD τ) accM fullShare (accAt V c (n - 1) (by omega))) ∗ (∃ r, prngReg c r)) := by
  cases n with
  | zero => exact absurd rfl hz
  | succ n => rfl

/-! ## The pipeline's proof data -/

/-- Pipeline 1's proof data on core `c`: the arrays as the region finds them; after the body at point `t` the input's buffer
    still at its strip, and the result's buffer — consulted at the last point only, where the body stores into it — at the
    running total; the invariant `PhiS`; nothing owed. -/
def dat1 (c : Dev nD) : Dat τ (Elt F) Unit ℕ (UR sig nD τ) ℕ cfg1 c where
  A w := V c (Pipeline.arrRef spec1 w)
  after w t := match w with
    | ⟨0, _⟩ => strip V c 0 t
    | ⟨1, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = strip V c 0 t := by dsimp only [dat1]
theorem after1_1 (c : Dev nD) (t : Fin cfg1.N) : (dat1 V c).after 1 t = accAt V c t.val t.isLt := by dsimp only [dat1]

theorem before1_0 (c : Dev nD) (t : Fin cfg1.N) (d) : (dat1 V c).before 0 t d = strip V c 0 t :=
  before_strip_of V (dat1 V c) (A_eq1 V c 0) (after1_0 V c) t d

/-! ## The body's triple, case by case -/

/-- The zero offsets of a rank-2 rectangle, as a constant function. -/
theorem off0 : (![0, 0] : Fin 2 → Nat) = fun _ => 0 := funext fun a => by fin_cases a <;> rfl

/-- A store through the whole 1 × 1 rectangle, made last, leaves its payload, whatever was stored before it. -/
theorem read_store_cell (v : View sig .tc .vmem S1x1 .f32) (f : v.ty.Contents (Elt F)) (w : Vec F S1x1 .f32)
    (L : List (View.Piece (Elt F) S1x1 .f32)) :
    v.read (Elt F) (v.writes (Elt F) f (⟨Rect.unit ![0, 0] S1x1.size inb_S1x1_S1x1_0_0, w⟩ :: L)) = w := by
  rw [View.read_writes_eq_canon _ _ _ (fun y => ⟨_, List.mem_cons.mpr (Or.inl rfl), View.mem_set_unit_zero off0 inb_S1x1_S1x1_0_0 y⟩),
    View.canon_cons_unit_zero off0]

set_option maxHeartbeats 2000000 in
/-- At the first point (the accumulator is cleared, the result is not stored): on whole buffers, the input's at `x`, the
    result's at `y`, the accumulator's at anything, the body runs to the input's and the result's unchanged and the
    accumulator's at `x`'s total added to the cleared accumulator — the clearing store is covered by the later one, and the
    accumulator loaded after it reads what it stored. -/
theorem sound_first (c : Dev nD) (E : Set ℕ) (i : grid1.Coords) (hF : isFirst i) (hL : ¬isLast i)
    (a1 : Memref sig .tc .vmem S512x8192 .f32) (h1 : a1.IsWhole) (a2 : Memref sig .tc .vmem S1x1 .f32) (h2 : a2.IsWhole)
    (a3 : Memref sig .tc .vmem S1x1 .f32) (h3 : a3.IsWhole)
    (x : Vec F S512x8192 .f32) (y : Vec F S1x1 .f32) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y ∗ owns (c : Thread nD τ) a3 fullShare (addStrip x cleared)) -∗ K ⟨⟩))
      ⊢ wp frame (wpE (defs₀ (F := F)) Variants.none c none) E (cc1__sum_kernel i a1 h1 a2 h2 a3 h3) K := by
  simp only [cc1__sum_kernel_eq_skeleton]; unfold cc1__sum_kernel_skel
  unfold owns
  iintro ⟨⟨%f1, %hf1, H1⟩, ⟨%f2, %hf2, H2⟩, ⟨%d3, %f3, -, H3⟩, Hk⟩
  subst hf1; subst hf2
  sl_exec (disch := first | exact hF | exact hL)
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (read_store_cell _ _ _ _).trans ?_
  unfold addStrip cleared
  simp only [View.readAt_eq_ld, View.readCov_unit_zero (S := S1x1) _ off0, View.ld_unit_zero (S := S512x8192) off0]
set_option maxHeartbeats 2000000 in
/-- At a point that is neither first nor last: the accumulator's at `a` becomes `x`'s total added to `a`; the input's and the
    result's buffers are left as found. -/
theorem sound_mid (c : Dev nD) (E : Set ℕ) (i : grid1.Coords) (hF : ¬isFirst i) (hL : ¬isLast i)
    (a1 : Memref sig .tc .vmem S512x8192 .f32) (h1 : a1.IsWhole) (a2 : Memref sig .tc .vmem S1x1 .f32) (h2 : a2.IsWhole)
    (a3 : Memref sig .tc .vmem S1x1 .f32) (h3 : a3.IsWhole)
    (x : Vec F S512x8192 .f32) (y a : Vec F S1x1 .f32) (K : PUnit → sProp 𝕄) :
    iprop(owns (c : Thread nD τ) a1 fullShare x ∗ owns (c : Thread nD τ) a2 fullShare y ∗ owns (c : Thread nD τ) a3 fullShare a
        ∗ (iprop(owns (c : Thread nD τ) a1 fullShare x ∗ owns (c : Thread nD τ) a2 fullShare y ∗ owns (c : Thread nD τ) a3 fullShare (addStrip x a)) -∗ K ⟨⟩))
      ⊢ wp frame (wpE (defs₀ (F := F)) Variants.none c none) E (cc1__sum_kernel i a1 h1 a2 h2 a3 h3) K := by
  simp only [cc1__sum_kernel_eq_skeleton]; unfold cc1__sum_kernel_skel
  unfold owns
  iintro ⟨⟨%f1, %hf1, H1⟩, ⟨%f2, %hf2, H2⟩, ⟨%f3, %hf3, H3⟩, Hk⟩
  subst hf1; subst hf2; subst hf3
  sl_exec (disch := first | exact hF | exact hL)
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (read_store_cell _ _ _ _).trans ?_
  unfold addStrip
  simp only [View.readAt_eq_ld, View.ld_unit_zero (S := S512x8192) off0, View.ld_unit_zero (S := S1x1) off0]

set_option maxHeartbeats 2000000 in
/-- At the last point (the result is stored): the accumulator's at `a` becomes `x`'s total added to `a`, and the result's
    buffer, at anything before, holds the same total: the value stored into it is the accumulator loaded back after its store. -/
theorem sound_last (c : Dev nD) (E : Set ℕ) (i : grid1.Coords) (hF : ¬isFirst i) (hL : isLast i)
    (a1 : Memref sig .tc .vmem S512x8192 .f32) (h1 : a1.IsWhole) (a2 : Memref sig .tc .vmem S1x1 .f32) (h2 : a2.IsWhole)
    (a3 : Memref sig .tc .vmem S1x1 .f32) (h3 : a3.IsWhole)
    (x : Vec F S512x8192 .f32) (a : Vec F S1x1 .f32) (K : PUnit → sProp 𝕄) :
    iprop(owns (c : Thread nD τ) a1 fullShare x ∗ (∃ d, owns (c : Thread nD τ) a2 fullShare d) ∗ owns (c : Thread nD τ) a3 fullShare a
        ∗ (iprop(owns (c : Thread nD τ) a1 fullShare x ∗ owns (c : Thread nD τ) a2 fullShare (addStrip x a) ∗ owns (c : Thread nD τ) a3 fullShare (addStrip x a)) -∗ K ⟨⟩))
      ⊢ wp frame (wpE (defs₀ (F := F)) Variants.none c none) E (cc1__sum_kernel i a1 h1 a2 h2 a3 h3) K := by
  simp only [cc1__sum_kernel_eq_skeleton]; unfold cc1__sum_kernel_skel
  unfold owns
  iintro ⟨⟨%f1, %hf1, H1⟩, ⟨%d2, %f2, -, H2⟩, ⟨%f3, %hf3, H3⟩, Hk⟩
  subst hf1; subst hf3
  sl_exec (disch := first | exact hF | exact hL)
  sl_step
  iapply Hk
  isplitl [H1]
  · iexists f1; isplitr; · ipureintro; rfl
    iexact H1
  isplitl [H2]
  · iexists _; isplitr
    swap; · iexact H2
    ipureintro
    sl_unfold_words
    refine (read_store_cell _ _ _ _).trans ?_
    unfold addStrip
    simp only [View.readAt_eq_ld, View.readCov_unit_zero (S := S1x1) _ off0, View.ld_unit_zero (S := S512x8192) off0, View.ld_unit_zero (S := S1x1) off0]
  iexists _; isplitr
  swap; · iexact H3
  ipureintro
  sl_unfold_words
  refine (read_store_cell _ _ _ _).trans ?_
  unfold addStrip
  simp only [View.readAt_eq_ld, View.ld_unit_zero (S := S512x8192) off0, View.ld_unit_zero (S := S1x1) off0]

/-! ## The obligation at a point -/

/-- The ten scoped buffers that are not the accumulator pass through while the accumulator's place changes hands. -/
theorem scopedWith_swap (c : Dev nD) (S S' : sProp 𝕄) : scopedWith (F := F) c S ⊢ iprop(S ∗ (S' -∗ scopedWith (F := F) c S')) := by
  unfold scopedWith
  iintro ⟨B0, B1, B2, B3, B4, B5, B6, B7, B8, B9, HS⟩
  isplitl [HS]; · iexact HS
  iintro HS'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HS'

/-- The running total at the first point: its strip's total over the cleared accumulator. -/
theorem accAt_first (c : Dev nD) (t : Fin cfg1.N) (hz : t.val = 0) :
    accAt V c t.val t.isLt = addStrip (strip V c 0 t) cleared := by
  obtain ⟨n, hn⟩ := t
  cases n with
  | zero => rfl
  | succ n => exact absurd hz (Nat.succ_ne_zero n)

/-- The running total at a later point: its strip's total over the total the point before left. -/
theorem accAt_later (c : Dev nD) (t : Fin cfg1.N) (hz : t.val ≠ 0) :
    accAt V c t.val t.isLt
      = addStrip (strip V c 0 t) (accAt V c (t.val - 1) (Nat.lt_of_le_of_lt (Nat.sub_le _ _) t.isLt)) := by
  obtain ⟨n, hn⟩ := t
  cases n with
  | zero => exact absurd rfl hz
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point. The input's buffer holds the point's strip. At the first point the accumulator is handed over at
    anything and comes back at the strip's total over the cleared accumulator; at a later point it is handed over at the total
    the point before left and comes back at the strip's total added to it. The result's buffer is handed back as found
    before the last point, where the window is idle, and at the last point holds the total just stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live_input t], after1_0]
  have hN : t.val < 8 := lt_of_lt_of_eq t.isLt (show cfg1.N = 8 from N_1)
  by_cases hz : t.val = 0
  · have hF : isFirst (grid1.coords t) := (isFirst_iff t).mpr hz
    have hL : ¬isLast (grid1.coords t) := fun h => by have := (isLast_iff t).mp h; omega
    rw [Dat.leavesExact_idle (dat1 V c) 1 t (idle_result t hL) (noFlush_result t hL)]
    rw [PhiS_castSucc V c t, PhiS_zero V c _ _ hz, PhiA1_eq, accAt_first V c t hz]
    iintro ⟨⟨HSW, Hg⟩, Ho, ⟨%d0, H0⟩, ⟨%d1, H1⟩⟩
    icases (scopedWith_swap c _ (owns (c : Thread nD τ) accM fullShare (addStrip (strip V c 0 t) cleared))) $$ HSW with ⟨HS, Hback⟩
    iapply (sound_first c Set.univ _ hF hL _ _ _ _ _ _ (strip V c 0 t) ((dat1 V c).before 1 t d1) _)
    isplitl [H0]; · iexact H0
    isplitl [H1]; · iexact H1
    isplitl [HS]; · iexact HS
    iintro ⟨H0, H1, HS⟩
    isplitl [HS Hback Hg]
    · isplitl [HS Hback]
      · iapply Hback; iexact HS
      iexact Hg
    isplitl [Ho]; · iexact Ho
    isplitl [H0]; · iexact H0
    iexists _; iexact H1
  · have hF : ¬isFirst (grid1.coords t) := fun h => hz ((isFirst_iff t).mp h)
    rw [PhiS_castSucc V c t, PhiS_pos V c _ _ hz, accAt_later V c t hz]
    by_cases h7 : t.val = 7
    · have hL : isLast (grid1.coords t) := (isLast_iff t).mpr h7
      rw [show (dat1 V c).leavesExact 1 t = owns (c : Thread nD τ) (st1_1 t) fullShare ((dat1 V c).after 1 t) from by
        unfold Dat.leavesExact; rw [live_result t hL], after1_1, accAt_later V c t hz]
      iintro ⟨⟨HSW, Hg⟩, Ho, ⟨%d0, H0⟩, ⟨%d1, H1⟩⟩
      icases (scopedWith_swap c _ (owns (c : Thread nD τ) accM fullShare
        (addStrip (strip V c 0 t) (accAt V c (t.val - 1) (Nat.lt_of_le_of_lt (Nat.sub_le _ _) t.isLt))))) $$ HSW with ⟨HS, Hback⟩
      iapply (sound_last c Set.univ _ hF hL _ _ _ _ _ _ (strip V c 0 t)
        (accAt V c (t.val - 1) (Nat.lt_of_le_of_lt (Nat.sub_le _ _) t.isLt)) _)
      isplitl [H0]; · iexact H0
      isplitl [H1]; · iexists _; iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      iexact H1
    · have hL : ¬isLast (grid1.coords t) := fun h => h7 ((isLast_iff t).mp h)
      rw [Dat.leavesExact_idle (dat1 V c) 1 t (idle_result t hL) (noFlush_result t hL)]
      iintro ⟨⟨HSW, Hg⟩, Ho, ⟨%d0, H0⟩, ⟨%d1, H1⟩⟩
      icases (scopedWith_swap c _ (owns (c : Thread nD τ) accM fullShare
        (addStrip (strip V c 0 t) (accAt V c (t.val - 1) (Nat.lt_of_le_of_lt (Nat.sub_le _ _) t.isLt))))) $$ HSW with ⟨HS, Hback⟩
      iapply (sound_mid c Set.univ _ hF hL _ _ _ _ _ _ (strip V c 0 t) ((dat1 V c).before 1 t d1)
        (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      iexists _; iexact H1

/-! ## The body obligation -/

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at anything: the total's name is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 8 := N_1; omega), PhiA1_eq]
  unfold scopedWith
  iintro ⟨⟨B0, B1, B2, B3, B4, B5, B6, B7, B8, B9, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexists _; iexact HS
  iexact Hg

end Cert.Kernel.Hand

end
-- ==== Proof.Kernel.Whole.lean ====
/- The whole program in order: the first kernel region, the second, then the host's reshape of the 1 × 1 result into a
   scalar. Between two items every unscoped buffer of the core is held at named contents: at launch the memory's; after the
   first region its four result arrays at what the 64 write-backs leave and everything else as before; after the second the
   1 × 1 result at what the last point's write-back leaves; after the reshape the scalar at the reshaped result. One launch
   over these three items gives: every weakly fair execution terminates, nothing faults, and the final memory holds every
   unscoped buffer at the last of those contents. The frame (the argument ends as launched) and each result's value are read
   off that. Stated for any reading of the floats. -/
import proofs.«121390_j73667279061090_1_alg».proof.Proof.Kernel.Elementwise
import proofs.«121390_j73667279061090_1_alg».proof.Proof.Kernel.Accumulate
import proofs.«121390_j73667279061090_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => (s₀ m ρ).mem ((c : Dev nD), b)
/-- The same read at the TensorCore's references: what the first region is entered from. -/
abbrev E0 : (c : Dev nD) → (b : Ref sig .tc) → Buf (Elt F) ((c : Thread nD τ).loc b) := fun c b => W0 m ρ c b

/-- After the first region: its arrays at what the pipeline leaves (the input as entered, each result's write-backs
    folded), every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same at the TensorCore's references: what the second region is entered from. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the second region: the 1 × 1 result at what the pipeline leaves, every other buffer as the region found it. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- After the host's reshape. -/
abbrev W3 : Dev nD → Valuation τ sig (Elt F) := fun c => StableHlo.after hostOps2 (W2 m ρ c)

/-- The reshape writes the scalar only: every other buffer is as the second region left it. -/
theorem W3_of (c : Dev nD) (r : Ref sig .tc) (h : r ∉ hostOps2_W) : W3 m ρ c r = W2 m ρ c r :=
  StableHlo.after_of_writes_sub hostOps2 _ hostOps2_writes h

/-! ## The proof data family and the thread state -/

/-- No pipeline has a prefetched table. -/
abbrev adm : (p : Fin 2) → (pcfgs (F := F) p).Adm := fun p => (cfgs p).toPCfg_adm
/-- Every pipeline's proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item: the unscoped buffers from contents `W` to `StableHlo.after ops W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator at some state. -/
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- The first region: entered from every unscoped buffer at the launch contents, left at `W1`. Its arrays are split out of
    the unscoped buffers and put back at their exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. As the first, but its invariant carries the accumulator: what the
    entry hands it is the invariant before the first point, and after the last point the invariant gives the scoped
    buffers back at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m ρ) c)
    unfold Pipeline.ΦA
    iintro ⟨Hp, -, Hr⟩
    isplitl [Hr]; · iexact Hr
    iexact Hp
  hout c := by
    refine (hout1 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the launch -/

/-- The program's three items in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]

theorem main_run (c : Dev nD) : main (F := F) c = Pipeline.Seg.run (segs m ρ) := (main_chain c).trans (by chain_rfl)

set_option backward.isDefEq.respectTransparency.types false in
/-- THE RUN. From any memory with zero counters, every weakly fair execution of the program on the TensorCores terminates,
    nothing faulting, and the final memory holds every unscoped buffer of every core at the contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What the last contents are, buffer by buffer -/

/-- The argument reaches the end as launched: no item writes it (each region only reads it, through an input window). -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 0).trans (((dat1 (E1 m ρ) c).arrAt_in 0 rfl _).trans (A_eq1 (E1 m ρ) c 0))
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The second region is entered with the argument as launched. -/
theorem E1_main_arg0 (c : Dev nD) : E1 m ρ c main_arg0 = m ((c : Thread nD τ).loc main_arg0) :=
  (W1_arr m ρ c 0).trans (((dat0 (E0 m ρ) c).arrAt_in 0 rfl _).trans (A_eq0 (E0 m ρ) c 0))

/-- Each of the first region's results ends at what its 64 write-backs left: neither the second region nor the reshape writes it. -/
theorem W3_main_v0_0 (c : Dev nD) : W3 m ρ c (Proc.devRef .tc main_v0_0) = (dat0 (E0 m ρ) c).arrAt 1 cfg0.N :=
  (W3_of m ρ c main_v0_0 (by decide)).trans ((W2_of_ne m ρ c main_v0_0 (by decide)).trans (W1_arr m ρ c 1))
theorem W3_main_v0_1 (c : Dev nD) : W3 m ρ c (Proc.devRef .tc main_v0_1) = (dat0 (E0 m ρ) c).arrAt 2 cfg0.N :=
  (W3_of m ρ c main_v0_1 (by decide)).trans ((W2_of_ne m ρ c main_v0_1 (by decide)).trans (W1_arr m ρ c 2))
theorem W3_main_v0_2 (c : Dev nD) : W3 m ρ c (Proc.devRef .tc main_v0_2) = (dat0 (E0 m ρ) c).arrAt 3 cfg0.N :=
  (W3_of m ρ c main_v0_2 (by decide)).trans ((W2_of_ne m ρ c main_v0_2 (by decide)).trans (W1_arr m ρ c 3))
theorem W3_main_v0_3 (c : Dev nD) : W3 m ρ c (Proc.devRef .tc main_v0_3) = (dat0 (E0 m ρ) c).arrAt 4 cfg0.N :=
  (W3_of m ρ c main_v0_3 (by decide)).trans ((W2_of_ne m ρ c main_v0_3 (by decide)).trans (W1_arr m ρ c 4))

/-- The scalar result is the reshape of the 1 × 1 result as the second region's last write-back left it. -/
theorem W3_main_v2 (c : Dev nD) :
    W3 m ρ c (Proc.devRef .tc main_v2) = shapeCast S_ ((dat1 (E1 m ρ) c).arrAt 1 cfg1.N) shapeCasts_S1x1_S_ := by
  rw [← W2_arr m ρ c 1]
  show StableHlo.after hostOps2 _ (Proc.devRef .tc main_v2) = _
  after_results
  rfl

/-! ## The frame -/

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run_main m ρ)

end Cert.Kernel.Hand

end
-- ==== Proof.KernelIdeal.Elementwise.lean ====
/- The first kernel region: on an 8 × 8 grid of 512 × 1024 tiles, each point reads its tile of the input and
   writes four tiles — the tile plus one, minus one, times two and divided by two — into the same position of
   four result arrays. Nothing is kept between points, so what a point leaves in each result's buffer is a
   function of the input tile alone. Stated for any reading of the floats, at the contents `V` the region is
   entered from. -/
import proofs.«121390_j73667279061090_1_alg».proof.Proof.Gen.KernelIdeal.Launch
import proofs.«121390_j73667279061090_1_alg».proof.Proof.Gen.KernelIdeal.Skeleton
import proofs.«121390_j73667279061090_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated where the regions are put in order
variable (V : (c : Dev nD) → (b : Ref sig .tc) → Buf (Elt F) ((c : Thread nD τ).loc b))

/-! ## The tile a point works on -/

/-- Window `w`'s 512 × 1024 tile at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's tile whenever the body runs: the window is fetched at every point,
    never cut and never idle. -/
theorem before_input_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-! ## What the body leaves in each result's buffer -/

/-- The whole 512 × 1024 buffer as one rectangle: every load and store of the body goes through it. -/
abbrev whole : Rect S512x1024 := Rect.unit (s := S512x1024) ![0, 0] S512x1024.size inb_S512x1024_S512x1024_0_0

/-- The tile plus one, as the one store into the first result's buffer leaves it. -/
def plusOne (x : Vec F S512x1024 .f32) : Vec F S512x1024 .f32 := View.canon [⟨whole, k0_pay1 (View.ld x whole)⟩]
/-- The tile minus one. -/
def minusOne (x : Vec F S512x1024 .f32) : Vec F S512x1024 .f32 := View.canon [⟨whole, k0_pay2 (View.ld x whole)⟩]
/-- The tile times two. -/
def doubled (x : Vec F S512x1024 .f32) : Vec F S512x1024 .f32 := View.canon [⟨whole, k0_pay3 (View.ld x whole)⟩]
/-- The tile divided by two. -/
def halved (x : Vec F S512x1024 .f32) : Vec F S512x1024 .f32 := View.canon [⟨whole, k0_pay4 (View.ld x whole)⟩]

/-- One store through the whole rectangle covers the buffer. -/
theorem whole_covers (p : Vec F S512x1024 .f32) (y : S512x1024.Idx) :
    ∃ pc ∈ ([⟨whole, p⟩] : List (View.Piece (Elt F) S512x1024 .f32)), y ∈ pc.1.set :=
  View.cover_of_tiled [⟨whole, p⟩] S512x1024.size (by rfl) y

/-! ## The body's triple -/

set_option maxHeartbeats 2000000 in
/-- On whole staging buffers, the input's at `x` and the four results' at anything, the body runs to the input's
    unchanged and the results' at `x + 1`, `x - 1`, `x * 2`, `x / 2` (each as its store leaves it). -/
theorem sound_elementwise (c : Dev nD) (E : Set ℕ) (i : grid0.Coords)
    (a2 : Memref sig .tc .vmem S512x1024 .f32) (h2 : a2.IsWhole) (a3 : Memref sig .tc .vmem S512x1024 .f32) (h3 : a3.IsWhole)
    (a4 : Memref sig .tc .vmem S512x1024 .f32) (h4 : a4.IsWhole) (a5 : Memref sig .tc .vmem S512x1024 .f32) (h5 : a5.IsWhole)
    (a6 : Memref sig .tc .vmem S512x1024 .f32) (h6 : a6.IsWhole)
    (x : Vec F S512x1024 .f32) (K : PUnit → sProp 𝕄) :
    iprop(owns (c : Thread nD τ) a2 fullShare x ∗ (∃ d, owns (c : Thread nD τ) a3 fullShare d) ∗ (∃ d, owns (c : Thread nD τ) a4 fullShare d)
        ∗ (∃ d, owns (c : Thread nD τ) a5 fullShare d) ∗ (∃ d, owns (c : Thread nD τ) a6 fullShare d)
        ∗ (iprop(owns (c : Thread nD τ) a2 fullShare x ∗ owns (c : Thread nD τ) a3 fullShare (plusOne x) ∗ owns (c : Thread nD τ) a4 fullShare (minusOne x)
            ∗ owns (c : Thread nD τ) a5 fullShare (doubled x) ∗ owns (c : Thread nD τ) a6 fullShare (halved x)) -∗ K ⟨⟩))
      ⊢ wp frame (wpE (defs₀ (F := F)) Variants.none c none) E (cc0__elementwise_kernel i a2 h2 a3 h3 a4 h4 a5 h5 a6 h6) K := by
  simp only [cc0__elementwise_kernel_eq_skeleton]; unfold cc0__elementwise_kernel_skel
  unfold owns
  iintro ⟨⟨%f2, %hf2, H2⟩, ⟨%d3, %f3, -, H3⟩, ⟨%d4, %f4, -, H4⟩, ⟨%d5, %f5, -, H5⟩, ⟨%d6, %f6, -, H6⟩, Hk⟩
  subst hf2
  sl_exec
  sl_step
  iapply Hk
  isplitl [H2]
  · iexists f2; isplitr; · ipureintro; rfl
    iexact H2
  isplitl [H3]
  · iexists _; isplitr
    swap; · iexact H3
    ipureintro; exact View.read_writes_eq_canon _ _ _ (whole_covers _)
  isplitl [H4]
  · iexists _; isplitr
    swap; · iexact H4
    ipureintro; exact View.read_writes_eq_canon _ _ _ (whole_covers _)
  isplitl [H5]
  · iexists _; isplitr
    swap; · iexact H5
    ipureintro; exact View.read_writes_eq_canon _ _ _ (whole_covers _)
  iexists _; isplitr
  swap; · iexact H6
  ipureintro; exact View.read_writes_eq_canon _ _ _ (whole_covers _)

/-! ## The pipeline's proof data -/

/-- Pipeline 0's proof data on core `c`: the arrays as the region finds them; after the body at point `t` the input's
    buffer still at its tile and the four results' at the tile plus one, minus one, doubled, halved; the invariant only
    the scoped buffers the pipeline does not stage and the generator register, both untouched; nothing owed. -/
def dat0 (c : Dev nD) : Dat τ (Elt F) Unit ℕ (UR sig nD τ) ℕ cfg0 c where
  A w := V c (Pipeline.arrRef spec0 w)
  after w t := match w with
    | ⟨0, _⟩ => tile V c 0 t
    | ⟨1, _⟩ => plusOne (tile V c 0 t)
    | ⟨2, _⟩ => minusOne (tile V c 0 t)
    | ⟨3, _⟩ => doubled (tile V c 0 t)
    | ⟨4, _⟩ => halved (tile V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile V c 0 t := by dsimp only [dat0]
theorem after0_1 (c : Dev nD) (t : Fin cfg0.N) : (dat0 V c).after 1 t = plusOne (tile V c 0 t) := by dsimp only [dat0]
theorem after0_2 (c : Dev nD) (t : Fin cfg0.N) : (dat0 V c).after 2 t = minusOne (tile V c 0 t) := by dsimp only [dat0]
theorem after0_3 (c : Dev nD) (t : Fin cfg0.N) : (dat0 V c).after 3 t = doubled (tile V c 0 t) := by dsimp only [dat0]
theorem after0_4 (c : Dev nD) (t : Fin cfg0.N) : (dat0 V c).after 4 t = halved (tile V c 0 t) := by dsimp only [dat0]

theorem before0_0 (c : Dev nD) (t : Fin cfg0.N) (d) : (dat0 V c).before 0 t d = tile V c 0 t :=
  before_input_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_elementwise c Set.univ _ _ _ _ _ _ _ _ _ _ _ (tile V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Accumulate.lean ====
/- The second kernel region: on a grid of 8 points, point `t` reads rows 512·t … 512·t + 511 of the input (a 512 × 8192
   strip), sums each row, sums the 512 row sums, and adds the result to a 1 × 1 accumulator kept in scratch memory between
   points; the first point clears the accumulator before adding, and the last point copies it to the 1 × 1 result.
   Here: what the accumulator holds after each point, as a recursion over the strips; the invariant that carries it from
   one point to the next; and the body's obligation. Stated for any reading of the floats, at the contents `V` the region is
   entered from. -/
import proofs.«121390_j73667279061090_1_alg».proof.Proof.Gen.KernelIdeal.Launch
import proofs.«121390_j73667279061090_1_alg».proof.Proof.Gen.KernelIdeal.Skeleton
import proofs.«121390_j73667279061090_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The strip a point works on -/

/-- Window `w`'s block at grid point `t` (for the input: the strip of 512 rows), read off its array as the region finds it. -/
def strip (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the point's strip whenever the body runs: fetched at every point, never cut, never idle. -/
theorem before_strip_of {c : Dev nD} (dat : Dat τ (Elt F) Unit ℕ (UR sig nD τ) ℕ cfg1 c) (hA : dat.A 0 = V c (Pipeline.arrRef spec1 0))
    (hafter : ∀ t, dat.after 0 t = strip V c 0 t) (t : Fin cfg1.N) (d) : dat.before 0 t d = strip V c 0 t :=
  (dat.before_in_eq_fetched 0 rfl (fun _ => rfl) (fun _ _ _ => rfl) (fun t => by rw [hafter]; unfold Dat.blockOf strip; rw [hA]; try rfl) t d).trans
    (by unfold Dat.fetched Dat.blockOf strip; rw [hA]; try rfl)

/-! ## The running total -/

/-- One point's step: the strip's total (row sums, then their sum) added to the accumulator `a`. -/
def addStrip (x : Vec F S512x8192 .f32) (a : Vec F S1x1 .f32) : Vec F S1x1 .f32 := k1_pay2 x a

/-- The cleared accumulator the first point starts from. -/
def cleared : Vec F S1x1 .f32 := k1_pay1

/-- What the accumulator holds after the body at point `n`: the strips' totals of points `0 … n` added up from the cleared
    accumulator, in point order. -/
def accAt (c : Dev nD) : (n : ℕ) → n < cfg1.N → Vec F S1x1 .f32
  | 0, h => addStrip (strip V c 0 ⟨0, h⟩) cleared
  | n + 1, h => addStrip (strip V c 0 ⟨n + 1, h⟩) (accAt c n (Nat.lt_of_succ_lt h))

theorem accAt_zero (c : Dev nD) (h : 0 < cfg1.N) : accAt V c 0 h = addStrip (strip V c 0 ⟨0, h⟩) cleared := rfl
theorem accAt_succ (c : Dev nD) (n : ℕ) (h : n + 1 < cfg1.N) :
    accAt V c (n + 1) h = addStrip (strip V c 0 ⟨n + 1, h⟩) (accAt V c n (Nat.lt_of_succ_lt h)) := rfl

/-! ## The branch conditions, and where the result's window is idle -/

/-- The first `scf.if`'s condition (clear the accumulator), from the grid coordinate. -/
abbrev isFirst (i : grid1.Coords) : Prop := (Scalar.cmpi .ne (Scalar.extui (Scalar.cmpi .eq (BitVec.ofNat 32 (i 0).val) 0#32)) 0#32) = 1#1
/-- The second `scf.if`'s condition (copy the accumulator out). -/
abbrev isLast (i : grid1.Coords) : Prop := k1_cond2 i = 1#1

theorem isFirst_iff : ∀ t : Fin cfg1.N, isFirst (grid1.coords t) ↔ t.val = 0 :=
  (by decide +kernel : ∀ t : Fin grid1.N, isFirst (grid1.coords t) ↔ t.val = 0)
theorem isLast_iff : ∀ t : Fin cfg1.N, isLast (grid1.coords t) ↔ t.val = 7 :=
  (by decide +kernel : ∀ t : Fin grid1.N, isLast (grid1.coords t) ↔ t.val = 7)

/-- The input window is never idle. -/
theorem live_input : ∀ t : Fin cfg1.N, cfg1.idle 0 (grid1.coords t) = false := by decide +kernel
/-- Before the last point the result's window is idle (nothing is stored into it) and is not written back. -/
theorem idle_result : ∀ t : Fin cfg1.N, ¬isLast (grid1.coords t) → cfg1.idle 1 (grid1.coords t) = true := by decide +kernel
theorem noFlush_result : ∀ t : Fin cfg1.N, ¬isLast (grid1.coords t) → (cfg1.win 1).flush t = false := by decide +kernel
/-- At the last point it is live. -/
theorem live_result : ∀ t : Fin cfg1.N, isLast (grid1.coords t) → cfg1.idle 1 (grid1.coords t) = false := by decide +kernel

/-! ## The invariant between points -/

/-- The accumulator: a whole scoped 1 × 1 buffer of the kernel's own, passed beside the windows. -/
abbrev accM : Memref sig .tc .vmem S1x1 .f32 := Memref.whole cc1_scratch0

/-- The scoped buffers of the core this pipeline does not stage — the first region's ten staging buffers, each whole at some
    contents — with the accumulator's place `S` last: what the invariant holds besides the generator register. -/
def scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ S)

/-- The class's invariant with the accumulator as a memref owned at some contents. -/
theorem PhiA1_eq (c : Dev nD) :
    (Pipeline.ΦA spec1 c : sProp 𝕄)
      = iprop(scopedWith c (iprop(∃ d, owns (c : Thread nD τ) accM fullShare d)) ∗ (∃ r, prngReg c r)) := by
  unfold Pipeline.ΦA scopedWith; rw [scopedRest1_eq]; simp only [accM, owns_whole]; try rfl

/-- The invariant before position `n`: before the first point every scoped buffer at anything; afterwards the accumulator at
    the running total the point before left, the other scoped buffers at anything; the generator register at some state. -/
def PhiS (c : Dev nD) : (n : ℕ) → n ≤ cfg1.N → sProp 𝕄
  | 0, _ => Pipeline.ΦA spec1 c
  | n + 1, hn => iprop(scopedWith c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) accM fullShare (accAt V c n hn)) ∗ (∃ r, prngReg c r)) := rfl

theorem PhiS_pos (c : Dev nD) (n : ℕ) (h : n ≤ cfg1.N) (hz : n ≠ 0) :
    PhiS V c n h = iprop(scopedWith c (owns (c : Thread nD τ) accM fullShare (accAt V c (n - 1) (by omega))) ∗ (∃ r, prngReg c r)) := by
  cases n with
  | zero => exact absurd rfl hz
  | succ n => rfl

/-! ## The pipeline's proof data -/

/-- Pipeline 1's proof data on core `c`: the arrays as the region finds them; after the body at point `t` the input's buffer
    still at its strip, and the result's buffer — consulted at the last point only, where the body stores into it — at the
    running total; the invariant `PhiS`; nothing owed. -/
def dat1 (c : Dev nD) : Dat τ (Elt F) Unit ℕ (UR sig nD τ) ℕ cfg1 c where
  A w := V c (Pipeline.arrRef spec1 w)
  after w t := match w with
    | ⟨0, _⟩ => strip V c 0 t
    | ⟨1, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = strip V c 0 t := by dsimp only [dat1]
theorem after1_1 (c : Dev nD) (t : Fin cfg1.N) : (dat1 V c).after 1 t = accAt V c t.val t.isLt := by dsimp only [dat1]

theorem before1_0 (c : Dev nD) (t : Fin cfg1.N) (d) : (dat1 V c).before 0 t d = strip V c 0 t :=
  before_strip_of V (dat1 V c) (A_eq1 V c 0) (after1_0 V c) t d

/-! ## The body's triple, case by case -/

/-- The zero offsets of a rank-2 rectangle, as a constant function. -/
theorem off0 : (![0, 0] : Fin 2 → Nat) = fun _ => 0 := funext fun a => by fin_cases a <;> rfl

/-- A store through the whole 1 × 1 rectangle, made last, leaves its payload, whatever was stored before it. -/
theorem read_store_cell (v : View sig .tc .vmem S1x1 .f32) (f : v.ty.Contents (Elt F)) (w : Vec F S1x1 .f32)
    (L : List (View.Piece (Elt F) S1x1 .f32)) :
    v.read (Elt F) (v.writes (Elt F) f (⟨Rect.unit ![0, 0] S1x1.size inb_S1x1_S1x1_0_0, w⟩ :: L)) = w := by
  rw [View.read_writes_eq_canon _ _ _ (fun y => ⟨_, List.mem_cons.mpr (Or.inl rfl), View.mem_set_unit_zero off0 inb_S1x1_S1x1_0_0 y⟩),
    View.canon_cons_unit_zero off0]

set_option maxHeartbeats 2000000 in
/-- At the first point (the accumulator is cleared, the result is not stored): on whole buffers, the input's at `x`, the
    result's at `y`, the accumulator's at anything, the body runs to the input's and the result's unchanged and the
    accumulator's at `x`'s total added to the cleared accumulator — the clearing store is covered by the later one, and the
    accumulator loaded after it reads what it stored. -/
theorem sound_first (c : Dev nD) (E : Set ℕ) (i : grid1.Coords) (hF : isFirst i) (hL : ¬isLast i)
    (a1 : Memref sig .tc .vmem S512x8192 .f32) (h1 : a1.IsWhole) (a2 : Memref sig .tc .vmem S1x1 .f32) (h2 : a2.IsWhole)
    (a3 : Memref sig .tc .vmem S1x1 .f32) (h3 : a3.IsWhole)
    (x : Vec F S512x8192 .f32) (y : Vec F S1x1 .f32) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y ∗ owns (c : Thread nD τ) a3 fullShare (addStrip x cleared)) -∗ K ⟨⟩))
      ⊢ wp frame (wpE (defs₀ (F := F)) Variants.none c none) E (cc1__sum_kernel i a1 h1 a2 h2 a3 h3) K := by
  simp only [cc1__sum_kernel_eq_skeleton]; unfold cc1__sum_kernel_skel
  unfold owns
  iintro ⟨⟨%f1, %hf1, H1⟩, ⟨%f2, %hf2, H2⟩, ⟨%d3, %f3, -, H3⟩, Hk⟩
  subst hf1; subst hf2
  sl_exec (disch := first | exact hF | exact hL)
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (read_store_cell _ _ _ _).trans ?_
  unfold addStrip cleared
  simp only [View.readAt_eq_ld, View.readCov_unit_zero (S := S1x1) _ off0, View.ld_unit_zero (S := S512x8192) off0]
set_option maxHeartbeats 2000000 in
/-- At a point that is neither first nor last: the accumulator's at `a` becomes `x`'s total added to `a`; the input's and the
    result's buffers are left as found. -/
theorem sound_mid (c : Dev nD) (E : Set ℕ) (i : grid1.Coords) (hF : ¬isFirst i) (hL : ¬isLast i)
    (a1 : Memref sig .tc .vmem S512x8192 .f32) (h1 : a1.IsWhole) (a2 : Memref sig .tc .vmem S1x1 .f32) (h2 : a2.IsWhole)
    (a3 : Memref sig .tc .vmem S1x1 .f32) (h3 : a3.IsWhole)
    (x : Vec F S512x8192 .f32) (y a : Vec F S1x1 .f32) (K : PUnit → sProp 𝕄) :
    iprop(owns (c : Thread nD τ) a1 fullShare x ∗ owns (c : Thread nD τ) a2 fullShare y ∗ owns (c : Thread nD τ) a3 fullShare a
        ∗ (iprop(owns (c : Thread nD τ) a1 fullShare x ∗ owns (c : Thread nD τ) a2 fullShare y ∗ owns (c : Thread nD τ) a3 fullShare (addStrip x a)) -∗ K ⟨⟩))
      ⊢ wp frame (wpE (defs₀ (F := F)) Variants.none c none) E (cc1__sum_kernel i a1 h1 a2 h2 a3 h3) K := by
  simp only [cc1__sum_kernel_eq_skeleton]; unfold cc1__sum_kernel_skel
  unfold owns
  iintro ⟨⟨%f1, %hf1, H1⟩, ⟨%f2, %hf2, H2⟩, ⟨%f3, %hf3, H3⟩, Hk⟩
  subst hf1; subst hf2; subst hf3
  sl_exec (disch := first | exact hF | exact hL)
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (read_store_cell _ _ _ _).trans ?_
  unfold addStrip
  simp only [View.readAt_eq_ld, View.ld_unit_zero (S := S512x8192) off0, View.ld_unit_zero (S := S1x1) off0]

set_option maxHeartbeats 2000000 in
/-- At the last point (the result is stored): the accumulator's at `a` becomes `x`'s total added to `a`, and the result's
    buffer, at anything before, holds the same total: the value stored into it is the accumulator loaded back after its store. -/
theorem sound_last (c : Dev nD) (E : Set ℕ) (i : grid1.Coords) (hF : ¬isFirst i) (hL : isLast i)
    (a1 : Memref sig .tc .vmem S512x8192 .f32) (h1 : a1.IsWhole) (a2 : Memref sig .tc .vmem S1x1 .f32) (h2 : a2.IsWhole)
    (a3 : Memref sig .tc .vmem S1x1 .f32) (h3 : a3.IsWhole)
    (x : Vec F S512x8192 .f32) (a : Vec F S1x1 .f32) (K : PUnit → sProp 𝕄) :
    iprop(owns (c : Thread nD τ) a1 fullShare x ∗ (∃ d, owns (c : Thread nD τ) a2 fullShare d) ∗ owns (c : Thread nD τ) a3 fullShare a
        ∗ (iprop(owns (c : Thread nD τ) a1 fullShare x ∗ owns (c : Thread nD τ) a2 fullShare (addStrip x a) ∗ owns (c : Thread nD τ) a3 fullShare (addStrip x a)) -∗ K ⟨⟩))
      ⊢ wp frame (wpE (defs₀ (F := F)) Variants.none c none) E (cc1__sum_kernel i a1 h1 a2 h2 a3 h3) K := by
  simp only [cc1__sum_kernel_eq_skeleton]; unfold cc1__sum_kernel_skel
  unfold owns
  iintro ⟨⟨%f1, %hf1, H1⟩, ⟨%d2, %f2, -, H2⟩, ⟨%f3, %hf3, H3⟩, Hk⟩
  subst hf1; subst hf3
  sl_exec (disch := first | exact hF | exact hL)
  sl_step
  iapply Hk
  isplitl [H1]
  · iexists f1; isplitr; · ipureintro; rfl
    iexact H1
  isplitl [H2]
  · iexists _; isplitr
    swap; · iexact H2
    ipureintro
    sl_unfold_words
    refine (read_store_cell _ _ _ _).trans ?_
    unfold addStrip
    simp only [View.readAt_eq_ld, View.readCov_unit_zero (S := S1x1) _ off0, View.ld_unit_zero (S := S512x8192) off0, View.ld_unit_zero (S := S1x1) off0]
  iexists _; isplitr
  swap; · iexact H3
  ipureintro
  sl_unfold_words
  refine (read_store_cell _ _ _ _).trans ?_
  unfold addStrip
  simp only [View.readAt_eq_ld, View.ld_unit_zero (S := S512x8192) off0, View.ld_unit_zero (S := S1x1) off0]

/-! ## The obligation at a point -/

/-- The ten scoped buffers that are not the accumulator pass through while the accumulator's place changes hands. -/
theorem scopedWith_swap (c : Dev nD) (S S' : sProp 𝕄) : scopedWith (F := F) c S ⊢ iprop(S ∗ (S' -∗ scopedWith (F := F) c S')) := by
  unfold scopedWith
  iintro ⟨B0, B1, B2, B3, B4, B5, B6, B7, B8, B9, HS⟩
  isplitl [HS]; · iexact HS
  iintro HS'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HS'

/-- The running total at the first point: its strip's total over the cleared accumulator. -/
theorem accAt_first (c : Dev nD) (t : Fin cfg1.N) (hz : t.val = 0) :
    accAt V c t.val t.isLt = addStrip (strip V c 0 t) cleared := by
  obtain ⟨n, hn⟩ := t
  cases n with
  | zero => rfl
  | succ n => exact absurd hz (Nat.succ_ne_zero n)

/-- The running total at a later point: its strip's total over the total the point before left. -/
theorem accAt_later (c : Dev nD) (t : Fin cfg1.N) (hz : t.val ≠ 0) :
    accAt V c t.val t.isLt
      = addStrip (strip V c 0 t) (accAt V c (t.val - 1) (Nat.lt_of_le_of_lt (Nat.sub_le _ _) t.isLt)) := by
  obtain ⟨n, hn⟩ := t
  cases n with
  | zero => exact absurd rfl hz
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point. The input's buffer holds the point's strip. At the first point the accumulator is handed over at
    anything and comes back at the strip's total over the cleared accumulator; at a later point it is handed over at the total
    the point before left and comes back at the strip's total added to it. The result's buffer is handed back as found
    before the last point, where the window is idle, and at the last point holds the total just stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live_input t], after1_0]
  have hN : t.val < 8 := lt_of_lt_of_eq t.isLt (show cfg1.N = 8 from N_1)
  by_cases hz : t.val = 0
  · have hF : isFirst (grid1.coords t) := (isFirst_iff t).mpr hz
    have hL : ¬isLast (grid1.coords t) := fun h => by have := (isLast_iff t).mp h; omega
    rw [Dat.leavesExact_idle (dat1 V c) 1 t (idle_result t hL) (noFlush_result t hL)]
    rw [PhiS_castSucc V c t, PhiS_zero V c _ _ hz, PhiA1_eq, accAt_first V c t hz]
    iintro ⟨⟨HSW, Hg⟩, Ho, ⟨%d0, H0⟩, ⟨%d1, H1⟩⟩
    icases (scopedWith_swap c _ (owns (c : Thread nD τ) accM fullShare (addStrip (strip V c 0 t) cleared))) $$ HSW with ⟨HS, Hback⟩
    iapply (sound_first c Set.univ _ hF hL _ _ _ _ _ _ (strip V c 0 t) ((dat1 V c).before 1 t d1) _)
    isplitl [H0]; · iexact H0
    isplitl [H1]; · iexact H1
    isplitl [HS]; · iexact HS
    iintro ⟨H0, H1, HS⟩
    isplitl [HS Hback Hg]
    · isplitl [HS Hback]
      · iapply Hback; iexact HS
      iexact Hg
    isplitl [Ho]; · iexact Ho
    isplitl [H0]; · iexact H0
    iexists _; iexact H1
  · have hF : ¬isFirst (grid1.coords t) := fun h => hz ((isFirst_iff t).mp h)
    rw [PhiS_castSucc V c t, PhiS_pos V c _ _ hz, accAt_later V c t hz]
    by_cases h7 : t.val = 7
    · have hL : isLast (grid1.coords t) := (isLast_iff t).mpr h7
      rw [show (dat1 V c).leavesExact 1 t = owns (c : Thread nD τ) (st1_1 t) fullShare ((dat1 V c).after 1 t) from by
        unfold Dat.leavesExact; rw [live_result t hL], after1_1, accAt_later V c t hz]
      iintro ⟨⟨HSW, Hg⟩, Ho, ⟨%d0, H0⟩, ⟨%d1, H1⟩⟩
      icases (scopedWith_swap c _ (owns (c : Thread nD τ) accM fullShare
        (addStrip (strip V c 0 t) (accAt V c (t.val - 1) (Nat.lt_of_le_of_lt (Nat.sub_le _ _) t.isLt))))) $$ HSW with ⟨HS, Hback⟩
      iapply (sound_last c Set.univ _ hF hL _ _ _ _ _ _ (strip V c 0 t)
        (accAt V c (t.val - 1) (Nat.lt_of_le_of_lt (Nat.sub_le _ _) t.isLt)) _)
      isplitl [H0]; · iexact H0
      isplitl [H1]; · iexists _; iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      iexact H1
    · have hL : ¬isLast (grid1.coords t) := fun h => h7 ((isLast_iff t).mp h)
      rw [Dat.leavesExact_idle (dat1 V c) 1 t (idle_result t hL) (noFlush_result t hL)]
      iintro ⟨⟨HSW, Hg⟩, Ho, ⟨%d0, H0⟩, ⟨%d1, H1⟩⟩
      icases (scopedWith_swap c _ (owns (c : Thread nD τ) accM fullShare
        (addStrip (strip V c 0 t) (accAt V c (t.val - 1) (Nat.lt_of_le_of_lt (Nat.sub_le _ _) t.isLt))))) $$ HSW with ⟨HS, Hback⟩
      iapply (sound_mid c Set.univ _ hF hL _ _ _ _ _ _ (strip V c 0 t) ((dat1 V c).before 1 t d1)
        (accAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hback Hg]
      · isplitl [HS Hback]
        · iapply Hback; iexact HS
        iexact Hg
      isplitl [Ho]; · iexact Ho
      isplitl [H0]; · iexact H0
      iexists _; iexact H1

/-! ## The body obligation -/

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at anything: the total's name is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 8 := N_1; omega), PhiA1_eq]
  unfold scopedWith
  iintro ⟨⟨B0, B1, B2, B3, B4, B5, B6, B7, B8, B9, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexists _; iexact HS
  iexact Hg

end Cert.KernelIdeal.Hand

end
-- ==== Proof.KernelIdeal.Whole.lean ====
/- The whole program in order: the first kernel region, the second, then the host's reshape of the 1 × 1 result into a
   scalar. Between two items every unscoped buffer of the core is held at named contents: at launch the memory's; after the
   first region its four result arrays at what the 64 write-backs leave and everything else as before; after the second the
   1 × 1 result at what the last point's write-back leaves; after the reshape the scalar at the reshaped result. One launch
   over these three items gives: every weakly fair execution terminates, nothing faults, and the final memory holds every
   unscoped buffer at the last of those contents. The frame (the argument ends as launched) and each result's value are read
   off that. Stated for any reading of the floats. -/
import proofs.«121390_j73667279061090_1_alg».proof.Proof.KernelIdeal.Elementwise
import proofs.«121390_j73667279061090_1_alg».proof.Proof.KernelIdeal.Accumulate
import proofs.«121390_j73667279061090_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => (s₀ m ρ).mem ((c : Dev nD), b)
/-- The same read at the TensorCore's references: what the first region is entered from. -/
abbrev E0 : (c : Dev nD) → (b : Ref sig .tc) → Buf (Elt F) ((c : Thread nD τ).loc b) := fun c b => W0 m ρ c b

/-- After the first region: its arrays at what the pipeline leaves (the input as entered, each result's write-backs
    folded), every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same at the TensorCore's references: what the second region is entered from. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the second region: the 1 × 1 result at what the pipeline leaves, every other buffer as the region found it. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- After the host's reshape. -/
abbrev W3 : Dev nD → Valuation τ sig (Elt F) := fun c => StableHlo.after hostOps2 (W2 m ρ c)

/-- The reshape writes the scalar only: every other buffer is as the second region left it. -/
theorem W3_of (c : Dev nD) (r : Ref sig .tc) (h : r ∉ hostOps2_W) : W3 m ρ c r = W2 m ρ c r :=
  StableHlo.after_of_writes_sub hostOps2 _ hostOps2_writes h

/-! ## The proof data family and the thread state -/

/-- No pipeline has a prefetched table. -/
abbrev adm : (p : Fin 2) → (pcfgs (F := F) p).Adm := fun p => (cfgs p).toPCfg_adm
/-- Every pipeline's proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item: the unscoped buffers from contents `W` to `StableHlo.after ops W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator at some state. -/
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- The first region: entered from every unscoped buffer at the launch contents, left at `W1`. Its arrays are split out of
    the unscoped buffers and put back at their exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. As the first, but its invariant carries the accumulator: what the
    entry hands it is the invariant before the first point, and after the last point the invariant gives the scoped
    buffers back at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m ρ) c)
    unfold Pipeline.ΦA
    iintro ⟨Hp, -, Hr⟩
    isplitl [Hr]; · iexact Hr
    iexact Hp
  hout c := by
    refine (hout1 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the launch -/

/-- The program's three items in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]

theorem main_run (c : Dev nD) : main (F := F) c = Pipeline.Seg.run (segs m ρ) := (main_chain c).trans (by chain_rfl)

set_option backward.isDefEq.respectTransparency.types false in
/-- THE RUN. From any memory with zero counters, every weakly fair execution of the program on the TensorCores terminates,
    nothing faulting, and the final memory holds every unscoped buffer of every core at the contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What the last contents are, buffer by buffer -/

/-- The argument reaches the end as launched: no item writes it (each region only reads it, through an input window). -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 0).trans (((dat1 (E1 m ρ) c).arrAt_in 0 rfl _).trans (A_eq1 (E1 m ρ) c 0))
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

/-- The second region is entered with the argument as launched. -/
theorem E1_main_arg0 (c : Dev nD) : E1 m ρ c main_arg0 = m ((c : Thread nD τ).loc main_arg0) :=
  (W1_arr m ρ c 0).trans (((dat0 (E0 m ρ) c).arrAt_in 0 rfl _).trans (A_eq0 (E0 m ρ) c 0))

/-- Each of the first region's results ends at what its 64 write-backs left: neither the second region nor the reshape writes it. -/
theorem W3_main_v0_0 (c : Dev nD) : W3 m ρ c (Proc.devRef .tc main_v0_0) = (dat0 (E0 m ρ) c).arrAt 1 cfg0.N :=
  (W3_of m ρ c main_v0_0 (by decide)).trans ((W2_of_ne m ρ c main_v0_0 (by decide)).trans (W1_arr m ρ c 1))
theorem W3_main_v0_1 (c : Dev nD) : W3 m ρ c (Proc.devRef .tc main_v0_1) = (dat0 (E0 m ρ) c).arrAt 2 cfg0.N :=
  (W3_of m ρ c main_v0_1 (by decide)).trans ((W2_of_ne m ρ c main_v0_1 (by decide)).trans (W1_arr m ρ c 2))
theorem W3_main_v0_2 (c : Dev nD) : W3 m ρ c (Proc.devRef .tc main_v0_2) = (dat0 (E0 m ρ) c).arrAt 3 cfg0.N :=
  (W3_of m ρ c main_v0_2 (by decide)).trans ((W2_of_ne m ρ c main_v0_2 (by decide)).trans (W1_arr m ρ c 3))
theorem W3_main_v0_3 (c : Dev nD) : W3 m ρ c (Proc.devRef .tc main_v0_3) = (dat0 (E0 m ρ) c).arrAt 4 cfg0.N :=
  (W3_of m ρ c main_v0_3 (by decide)).trans ((W2_of_ne m ρ c main_v0_3 (by decide)).trans (W1_arr m ρ c 4))

/-- The scalar result is the reshape of the 1 × 1 result as the second region's last write-back left it. -/
theorem W3_main_v2 (c : Dev nD) :
    W3 m ρ c (Proc.devRef .tc main_v2) = shapeCast S_ ((dat1 (E1 m ρ) c).arrAt 1 cfg1.N) shapeCasts_S1x1_S_ := by
  rw [← W2_arr m ρ c 1]
  show StableHlo.after hostOps2 _ (Proc.devRef .tc main_v2) = _
  after_results
  rfl

/-! ## The frame -/

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run_main m ρ)

end Cert.KernelIdeal.Hand

end
-- ==== Proof.Spec.lean ====
/- What the program computes, as plain functions on the extended reals, of the one input `x`, a 4096 × 8192 array:
   four arrays of the same shape — `x + 1`, `x - 1`, `x · 2`, `x / 2`, entry by entry, the constants the exact values of
   the binary32 words for 1 and 2 — and one number, the sum of all entries of `x`. Both programs are shown to end at
   these. The extended reals are a commutative monoid under addition, so the total does not depend on the order or the
   grouping in which the entries are added. -/
import Idealize.ShloMosaic.PureOps.Ideal
import Idealize.ShloMosaic.Lib.ValueIdx

noncomputable section

namespace Cert.Spec

open Idealize.ShloMosaic

/-- The input's shape. -/
abbrev Big : Shape := ⟨2, ![4096, 8192]⟩
/-- A scalar's shape: one index, the empty one. -/
abbrev Scal : Shape := ⟨0, ![]⟩

/-- The binary32 word of 1.0, as the extended real it denotes. -/
abbrev one : EReal := Ideal.ofBits .f32 0x3F800000#32
/-- The binary32 word of 2.0. -/
abbrev two : EReal := Ideal.ofBits .f32 0x40000000#32

/-- Every entry plus one. -/
def plusOne (x : Big.Idx → EReal) : Big.Idx → EReal := fun i => x i + one
/-- Every entry minus one. -/
def minusOne (x : Big.Idx → EReal) : Big.Idx → EReal := fun i => x i - one
/-- Every entry times two. -/
def doubled (x : Big.Idx → EReal) : Big.Idx → EReal := fun i => x i * two
/-- Every entry divided by two (the extended reals' division as both programs' division reads). -/
def halved (x : Big.Idx → EReal) : Big.Idx → EReal := fun i => Ideal.div (x i) two
/-- The sum of all entries. -/
def sum (x : Big.Idx → EReal) : EReal := ∑ i : Big.Idx, x i
/-- The sum of all entries, as a scalar array. -/
def total (x : Big.Idx → EReal) : Scal.Idx → EReal := fun _ => sum x

end Cert.Spec

end
-- ==== Proof.Value.Tiles.lean ====
/- The first region's four result arrays after all 64 grid points, over the extended reals: the 512 × 1024 tiles the
   points write back tile the 4096 × 8192 arrays (tile (p, q) covers rows 512·p … and columns 1024·q …), and each tile
   is the input's tile plus one, minus one, doubled, halved, entry by entry; so each whole array is that function of
   the whole input. -/
import proofs.«121390_j73667279061090_1_alg».proof.Proof.KernelIdeal.Elementwise
import proofs.«121390_j73667279061090_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

-- the buffers' contents when the region is entered, read as extended reals
variable (V : (c : Dev nD) → (b : Ref sig .tc) → Buf (Elt Ideal) ((c : Thread nD τ).loc b))

/-- The whole-buffer rectangle's offsets are zero on both axes. -/
theorem zero_offsets : (![0, 0] : Fin 2 → Nat) = fun _ => 0 := funext fun a => by fin_cases a <;> rfl

/-- The printed index maps over the grid: at point t every window's block index is (t / 8, t % 8). -/
theorem block_index : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 2) = t.val / 8 ∧ win0_2.index t (1 : Fin 2) = t.val % 8)
    ∧ (win0_3.index t (0 : Fin 2) = t.val / 8 ∧ win0_3.index t (1 : Fin 2) = t.val % 8)
    ∧ (win0_4.index t (0 : Fin 2) = t.val / 8 ∧ win0_4.index t (1 : Fin 2) = t.val % 8) :=
  (by decide +kernel : ∀ t : Fin grid0.N, _)

/-! ## The first result: the input plus one -/

/-- Result window 1's tile at a point sits where the input's tile at that point sits: both block indices are
    (t / 8, t % 8), so an entry (y₀, y₁) of either tile is entry (512·(t / 8) + y₀, 1024·(t % 8) + y₁) of its array. -/
theorem same_block1 (t : Fin cfg0.N) (j : S512x1024.Idx) :
    ((cfg0.win 0).blk t).view.emb j = ((cfg0.win 1).blk t).view.emb j := by
  obtain ⟨⟨a0, a1⟩, ⟨b0, b1⟩, ⟨c0, c1⟩, ⟨d0, d1⟩, ⟨e0, e1⟩⟩ := block_index t
  funext a; apply Fin.ext
  match a with
  | ⟨0, _⟩ => show win0_0.index t (0 : Fin 2) * 512 + 1 * (j 0).val = win0_1.index t (0 : Fin 2) * 512 + 1 * (j 0).val; omega
  | ⟨1, _⟩ => show win0_0.index t (1 : Fin 2) * 1024 + 1 * (j 1).val = win0_1.index t (1 : Fin 2) * 1024 + 1 * (j 1).val; omega

/-- What a point writes back to result 1 is its tile of the input plus one of the whole input. -/
theorem flushed1 (c : Dev nD) (t : Fin cfg0.N) :
    (dat0 (F := Ideal) V c).flushed 1 t = ((cfg0.win 1).blk t).view.read (Elt Ideal) (Cert.Spec.plusOne (V c main_arg0)) := by
  show (cfg0.win 1).cut (grid0.coords t) ((dat0 V c).after 1 t) = _
  rw [after0_1]
  unfold plusOne
  rw [View.canon_unit_zero zero_offsets]
  simp only [View.ld_unit_zero (S := S512x1024) zero_offsets]
  funext j
  exact congrArg (Cert.Spec.plusOne (V c main_arg0)) (same_block1 t j)

/-- An entry of result 1 is in a point's tile iff on each axis it lies within the tile's range. -/
theorem mem_block1 (t : Fin cfg0.N) (i : S4096x8192.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0_0).slice (win0_1.rect t)).set ↔ _
  rw [View.set_slice_whole, Rect.mem_set_unit]
  exact Iff.rfl

/-- Every entry (r, q) of result 1 is in the tile of the point (r / 512)·8 + q / 1024, which writes it back. -/
theorem covered1 (i : S4096x8192.Idx) : ∃ t : Fin cfg0.N, (cfg0.win 1).flush t = true ∧ i ∈ ((cfg0.win 1).blk t).view.set := by
  have hi0 : (i 0).val < 4096 := (i 0).isLt
  have hi1 : (i 1).val < 8192 := (i 1).isLt
  obtain ⟨t, ht⟩ : ∃ t : Fin cfg0.N, t.val = (i 0).val / 512 * 8 + (i 1).val / 1024 :=
    ⟨⟨(i 0).val / 512 * 8 + (i 1).val / 1024, by rw [show cfg0.N = 64 from N_0]; omega⟩, rfl⟩
  obtain ⟨⟨a0, a1⟩, ⟨b0, b1⟩, ⟨c0, c1⟩, ⟨d0, d1⟩, ⟨e0, e1⟩⟩ := block_index t
  refine ⟨t, flush0_1 t, ?_⟩
  rw [mem_block1]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1024 ≤ (i 1).val ∧ (i 1).val < win0_1.index t (1 : Fin 2) * 1024 + 1024; omega

/-- After the region the first result array is the input plus one, entry by entry. -/
theorem arr_plusOne (c : Dev nD) : (dat0 (F := Ideal) V c).arrAt 1 cfg0.N = Cert.Spec.plusOne (V c main_arg0) :=
  (dat0 V c).arrAt_eq_of_cover 1 (Cert.Spec.plusOne (V c main_arg0)) (fun t _ => flushed1 V c t) covered1

/-! ## The second result: the input minus one -/

/-- Result window 2's tile at a point sits where the input's tile at that point sits: both block indices are
    (t / 8, t % 8), so an entry (y₀, y₁) of either tile is entry (512·(t / 8) + y₀, 1024·(t % 8) + y₁) of its array. -/
theorem same_block2 (t : Fin cfg0.N) (j : S512x1024.Idx) :
    ((cfg0.win 0).blk t).view.emb j = ((cfg0.win 2).blk t).view.emb j := by
  obtain ⟨⟨a0, a1⟩, ⟨b0, b1⟩, ⟨c0, c1⟩, ⟨d0, d1⟩, ⟨e0, e1⟩⟩ := block_index t
  funext a; apply Fin.ext
  match a with
  | ⟨0, _⟩ => show win0_0.index t (0 : Fin 2) * 512 + 1 * (j 0).val = win0_2.index t (0 : Fin 2) * 512 + 1 * (j 0).val; omega
  | ⟨1, _⟩ => show win0_0.index t (1 : Fin 2) * 1024 + 1 * (j 1).val = win0_2.index t (1 : Fin 2) * 1024 + 1 * (j 1).val; omega

/-- What a point writes back to result 2 is its tile of the input minus one of the whole input. -/
theorem flushed2 (c : Dev nD) (t : Fin cfg0.N) :
    (dat0 (F := Ideal) V c).flushed 2 t = ((cfg0.win 2).blk t).view.read (Elt Ideal) (Cert.Spec.minusOne (V c main_arg0)) := by
  show (cfg0.win 2).cut (grid0.coords t) ((dat0 V c).after 2 t) = _
  rw [after0_2]
  unfold minusOne
  rw [View.canon_unit_zero zero_offsets]
  simp only [View.ld_unit_zero (S := S512x1024) zero_offsets]
  funext j
  exact congrArg (Cert.Spec.minusOne (V c main_arg0)) (same_block2 t j)

/-- An entry of result 2 is in a point's tile iff on each axis it lies within the tile's range. -/
theorem mem_block2 (t : Fin cfg0.N) (i : S4096x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0_1).slice (win0_2.rect t)).set ↔ _
  rw [View.set_slice_whole, Rect.mem_set_unit]
  exact Iff.rfl

/-- Every entry (r, q) of result 2 is in the tile of the point (r / 512)·8 + q / 1024, which writes it back. -/
theorem covered2 (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ : ∃ t : Fin cfg0.N, t.val = (i 0).val / 512 * 8 + (i 1).val / 1024 :=
    ⟨⟨(i 0).val / 512 * 8 + (i 1).val / 1024, by rw [show cfg0.N = 64 from N_0]; omega⟩, rfl⟩
  obtain ⟨⟨a0, a1⟩, ⟨b0, b1⟩, ⟨c0, c1⟩, ⟨d0, d1⟩, ⟨e0, e1⟩⟩ := block_index t
  refine ⟨t, flush0_2 t, ?_⟩
  rw [mem_block2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The second: the input minus one. -/
theorem arr_minusOne (c : Dev nD) : (dat0 (F := Ideal) V c).arrAt 2 cfg0.N = Cert.Spec.minusOne (V c main_arg0) :=
  (dat0 V c).arrAt_eq_of_cover 2 (Cert.Spec.minusOne (V c main_arg0)) (fun t _ => flushed2 V c t) covered2

/-! ## The third result: the input times two -/

/-- Result window 3's tile at a point sits where the input's tile at that point sits: both block indices are
    (t / 8, t % 8), so an entry (y₀, y₁) of either tile is entry (512·(t / 8) + y₀, 1024·(t % 8) + y₁) of its array. -/
theorem same_block3 (t : Fin cfg0.N) (j : S512x1024.Idx) :
    ((cfg0.win 0).blk t).view.emb j = ((cfg0.win 3).blk t).view.emb j := by
  obtain ⟨⟨a0, a1⟩, ⟨b0, b1⟩, ⟨c0, c1⟩, ⟨d0, d1⟩, ⟨e0, e1⟩⟩ := block_index t
  funext a; apply Fin.ext
  match a with
  | ⟨0, _⟩ => show win0_0.index t (0 : Fin 2) * 512 + 1 * (j 0).val = win0_3.index t (0 : Fin 2) * 512 + 1 * (j 0).val; omega
  | ⟨1, _⟩ => show win0_0.index t (1 : Fin 2) * 1024 + 1 * (j 1).val = win0_3.index t (1 : Fin 2) * 1024 + 1 * (j 1).val; omega

/-- What a point writes back to result 3 is its tile of the input times two of the whole input. -/
theorem flushed3 (c : Dev nD) (t : Fin cfg0.N) :
    (dat0 (F := Ideal) V c).flushed 3 t = ((cfg0.win 3).blk t).view.read (Elt Ideal) (Cert.Spec.doubled (V c main_arg0)) := by
  show (cfg0.win 3).cut (grid0.coords t) ((dat0 V c).after 3 t) = _
  rw [after0_3]
  unfold doubled
  rw [View.canon_unit_zero zero_offsets]
  simp only [View.ld_unit_zero (S := S512x1024) zero_offsets]
  funext j
  exact congrArg (Cert.Spec.doubled (V c main_arg0)) (same_block3 t j)

/-- An entry of result 3 is in a point's tile iff on each axis it lies within the tile's range. -/
theorem mem_block3 (t : Fin cfg0.N) (i : S4096x8192.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_2).slice (win0_3.rect t)).set ↔ _
  rw [View.set_slice_whole, Rect.mem_set_unit]
  exact Iff.rfl

/-- Every entry (r, q) of result 3 is in the tile of the point (r / 512)·8 + q / 1024, which writes it back. -/
theorem covered3 (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ : ∃ t : Fin cfg0.N, t.val = (i 0).val / 512 * 8 + (i 1).val / 1024 :=
    ⟨⟨(i 0).val / 512 * 8 + (i 1).val / 1024, by rw [show cfg0.N = 64 from N_0]; omega⟩, rfl⟩
  obtain ⟨⟨a0, a1⟩, ⟨b0, b1⟩, ⟨c0, c1⟩, ⟨d0, d1⟩, ⟨e0, e1⟩⟩ := block_index t
  refine ⟨t, flush0_3 t, ?_⟩
  rw [mem_block3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The third: the input times two. -/
theorem arr_doubled (c : Dev nD) : (dat0 (F := Ideal) V c).arrAt 3 cfg0.N = Cert.Spec.doubled (V c main_arg0) :=
  (dat0 V c).arrAt_eq_of_cover 3 (Cert.Spec.doubled (V c main_arg0)) (fun t _ => flushed3 V c t) covered3

/-! ## The fourth result: the input divided by two -/

/-- Result window 4's tile at a point sits where the input's tile at that point sits: both block indices are
    (t / 8, t % 8), so an entry (y₀, y₁) of either tile is entry (512·(t / 8) + y₀, 1024·(t % 8) + y₁) of its array. -/
theorem same_block4 (t : Fin cfg0.N) (j : S512x1024.Idx) :
    ((cfg0.win 0).blk t).view.emb j = ((cfg0.win 4).blk t).view.emb j := by
  obtain ⟨⟨a0, a1⟩, ⟨b0, b1⟩, ⟨c0, c1⟩, ⟨d0, d1⟩, ⟨e0, e1⟩⟩ := block_index t
  funext a; apply Fin.ext
  match a with
  | ⟨0, _⟩ => show win0_0.index t (0 : Fin 2) * 512 + 1 * (j 0).val = win0_4.index t (0 : Fin 2) * 512 + 1 * (j 0).val; omega
  | ⟨1, _⟩ => show win0_0.index t (1 : Fin 2) * 1024 + 1 * (j 1).val = win0_4.index t (1 : Fin 2) * 1024 + 1 * (j 1).val; omega

/-- What a point writes back to result 4 is its tile of the input divided by two of the whole input. -/
theorem flushed4 (c : Dev nD) (t : Fin cfg0.N) :
    (dat0 (F := Ideal) V c).flushed 4 t = ((cfg0.win 4).blk t).view.read (Elt Ideal) (Cert.Spec.halved (V c main_arg0)) := by
  show (cfg0.win 4).cut (grid0.coords t) ((dat0 V c).after 4 t) = _
  rw [after0_4]
  unfold halved
  rw [View.canon_unit_zero zero_offsets]
  simp only [View.ld_unit_zero (S := S512x1024) zero_offsets]
  funext j
  exact congrArg (Cert.Spec.halved (V c main_arg0)) (same_block4 t j)

/-- An entry of result 4 is in a point's tile iff on each axis it lies within the tile's range. -/
theorem mem_block4 (t : Fin cfg0.N) (i : S4096x8192.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_3).slice (win0_4.rect t)).set ↔ _
  rw [View.set_slice_whole, Rect.mem_set_unit]
  exact Iff.rfl

/-- Every entry (r, q) of result 4 is in the tile of the point (r / 512)·8 + q / 1024, which writes it back. -/
theorem covered4 (i : S4096x8192.Idx) : ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ : ∃ t : Fin cfg0.N, t.val = (i 0).val / 512 * 8 + (i 1).val / 1024 :=
    ⟨⟨(i 0).val / 512 * 8 + (i 1).val / 1024, by rw [show cfg0.N = 64 from N_0]; omega⟩, rfl⟩
  obtain ⟨⟨a0, a1⟩, ⟨b0, b1⟩, ⟨c0, c1⟩, ⟨d0, d1⟩, ⟨e0, e1⟩⟩ := block_index t
  refine ⟨t, flush0_4 t, ?_⟩
  rw [mem_block4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The fourth: the input divided by two. -/
theorem arr_halved (c : Dev nD) : (dat0 (F := Ideal) V c).arrAt 4 cfg0.N = Cert.Spec.halved (V c main_arg0) :=
  (dat0 V c).arrAt_eq_of_cover 4 (Cert.Spec.halved (V c main_arg0)) (fun t _ => flushed4 V c t) covered4

end Cert.KernelIdeal.Hand

end
-- ==== Proof.Value.Total.lean ====
/- The second region's 1 × 1 result after all 8 grid points, over the extended reals: the accumulator after point `n` is
   the sum of the entries of rows 0 … 512·(n+1) - 1 of the input (each point adds its strip's total — the sum of its 512
   row sums — to what the point before left, the first to zero); the last point's copy is the only block written back; so
   the result's one entry is the sum of all entries. The regrouping is the commutative monoid's. -/
import proofs.«121390_j73667279061090_1_alg».proof.Proof.KernelIdeal.Accumulate
import proofs.«121390_j73667279061090_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

-- the buffers' contents when the region is entered, read as extended reals
variable (V : (c : Dev nD) → (b : Ref sig .tc) → Buf (Elt Ideal) ((c : Thread nD τ).loc b))

/-! ## Regrouping: eight strips of 512 rows are the 4096 rows -/

/-- Row `r` of strip `t` is row `512·t + r` of the array. -/
def stripRow (t : Fin 8) (r : Fin 512) : Fin 4096 := ⟨512 * t.val + r.val, by have := t.isLt; have := r.isLt; omega⟩

/-- (strip, row inside the strip) ↔ row of the array. -/
def stripRowEquiv : Fin 8 × Fin 512 ≃ Fin 4096 where
  toFun p := stripRow p.1 p.2
  invFun i := (⟨i.val / 512, by have := i.isLt; omega⟩, ⟨i.val % 512, by omega⟩)
  left_inv p := by
    obtain ⟨t, r⟩ := p
    have := t.isLt; have := r.isLt
    refine Prod.ext (Fin.ext ?_) (Fin.ext ?_)
    · show (512 * t.val + r.val) / 512 = t.val; omega
    · show (512 * t.val + r.val) % 512 = r.val; omega
  right_inv i := by
    apply Fin.ext
    show 512 * (i.val / 512) + i.val % 512 = i.val; omega

/-- Summing strip by strip, row by row inside a strip, is summing over all rows (a commutative monoid's regrouping). -/
theorem sum_strips {M : Type*} [AddCommMonoid M] (g : Fin 4096 → M) :
    ∑ t : Fin 8, ∑ r : Fin 512, g (stripRow t r) = ∑ i : Fin 4096, g i := by
  rw [← Fintype.sum_prod_type (f := fun p : Fin 8 × Fin 512 => g (stripRow p.1 p.2))]
  exact Equiv.sum_comp stripRowEquiv g

/-! ## One point's step, read at the accumulator's one index -/

/-- A vector cast to a column, `[a] → [a, 1]`, reads at `(i, u)` the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane reduction of a 512 × 8192 block at row `r` is the sum of that row's entries. -/
theorem rowSum_apply (x : Vec Ideal S512x8192 .f32) (hφ : FKind.Formats .f32)
    (hacc : (0x00000000#32 : BitVec 32) = FKind.add.neutral .f32 hφ) (r : Fin 512) :
    multiReduction (F := Ideal) .add [1] S512 x 0x00000000#32 reduces_S512x8192_S512 hφ hacc (ix1 r)
      = ∑ k : Fin 8192, x (ix2 r k) := by
  refine (Ideal.multiReduction_add_single x 0x00000000#32 reduces_S512x8192_S512 hφ hacc (ix1 r)).trans ?_
  refine Finset.sum_congr rfl fun k _ => congrArg x ?_
  funext a
  match a with
  | ⟨0, _⟩ => rfl
  | ⟨1, _⟩ => rfl

/-- One point's step at the accumulator's index: what the accumulator held plus the sum of the strip's 512 row sums. -/
theorem addStrip_apply (x : Vec Ideal S512x8192 .f32) (a : Vec Ideal S1x1 .f32) (u v : Fin 1) :
    addStrip x a (ix2 u v) = a (ix2 u v) + ∑ r : Fin 512, ∑ k : Fin 8192, x (ix2 r k) := by
  unfold addStrip k1_pay2
  refine (congrFun (shapeCast_self _ shapeCasts_S1x1_S1x1) (ix2 u v)).trans ?_
  refine congrArg (fun z : EReal => a (ix2 u v) + z) ?_
  refine (shapeCast_a_1a_apply _ shapeCasts_S1_S1x1 u v).trans ?_
  refine (Ideal.multiReduction_add_single _ 0x00000000#32 reduces_S512x1_S1 _ _ (ix1 v)).trans ?_
  refine Finset.sum_congr rfl fun r _ => ?_
  refine (shapeCast_a_a1_apply _ shapeCasts_S512_S512x1 r v).trans ?_
  exact rowSum_apply x _ _ r

/-- The cleared accumulator holds zero. -/
theorem cleared_apply (u v : Fin 1) : (cleared (F := Ideal)) (ix2 u v) = 0 := by
  unfold cleared k1_pay1
  refine (congrFun (shapeCast_self _ shapeCasts_S1x1_S1x1) (ix2 u v)).trans ?_
  exact Ideal.ofBits_zero_f32

/-! ## The strips are the rows of the input -/

/-- The input array at its literal shape. -/
abbrev xarr (c : Dev nD) : Vec Ideal S4096x8192 .f32 := V c main_arg0
/-- The strip point `t` works on, at its literal shape. -/
abbrev xstrip (c : Dev nD) (t : Fin cfg1.N) : Vec Ideal S512x8192 .f32 := strip V c 0 t

/-- The input window's block index at point `t` is `(t, 0)`. -/
theorem strip_index : ∀ t : Fin cfg1.N, win1_0.index t 0 = t.val ∧ win1_0.index t 1 = 0 :=
  (by decide +kernel : ∀ t : Fin grid1.N, win1_0.index t 0 = t.val ∧ win1_0.index t 1 = 0)

/-- Entry `(r, k)` of strip `t` is entry `(512·t + r, k)` of the input. -/
theorem xstrip_apply (c : Dev nD) (t : Fin cfg1.N) (r : Fin 512) (k : Fin 8192) (i : Fin 4096)
    (hi : i.val = 512 * t.val + r.val) : xstrip V c t (ix2 r k) = xarr V c (ix2 i k) := by
  have hidx := strip_index t
  unfold xstrip strip
  rw [View.read_apply]
  show V c main_arg0 _ = V c main_arg0 _
  congr 1
  funext a
  apply Fin.ext
  match a with
  | ⟨0, _⟩ => show win1_0.index t 0 * 512 + 1 * r.val = i.val; rw [hidx.1, hi]; omega
  | ⟨1, _⟩ => show win1_0.index t 1 * 8192 + 1 * k.val = k.val; rw [hidx.2]; omega

/-! ## The running total -/

/-- The total of strip `t`: the sum of its 512 row sums (zero past the grid). -/
def stripTotal (c : Dev nD) (t : ℕ) : EReal :=
  if h : t < cfg1.N then ∑ r : Fin 512, ∑ k : Fin 8192, xstrip V c ⟨t, h⟩ (ix2 r k) else 0

/-- After point `n` the accumulator holds the totals of strips `0 … n` added up (from zero: `0 + a = a`). -/
theorem accAt_apply (c : Dev nD) (u v : Fin 1) : ∀ (n : ℕ) (h : n < cfg1.N),
    (accAt V c n h : Vec Ideal S1x1 .f32) (ix2 u v) = ∑ t ∈ Finset.range (n + 1), stripTotal V c t
  | 0, h => by
    rw [accAt_zero V c h]
    refine (addStrip_apply (xstrip V c ⟨0, h⟩) cleared u v).trans ?_
    rw [cleared_apply, zero_add, Finset.sum_range_one]
    unfold stripTotal
    rw [dif_pos h]
  | n + 1, h => by
    rw [accAt_succ V c n h]
    refine (addStrip_apply (xstrip V c ⟨n + 1, h⟩) (accAt V c n (Nat.lt_of_succ_lt h)) u v).trans ?_
    rw [accAt_apply c u v n (Nat.lt_of_succ_lt h), Finset.sum_range_succ _ (n + 1)]
    congr 1
    unfold stripTotal
    rw [dif_pos h]

/-- After the last point it holds the sum of all entries of the input. -/
theorem accAt_last (c : Dev nD) (h : 7 < cfg1.N) (j : S1x1.Idx) :
    (accAt V c 7 h : Vec Ideal S1x1 .f32) j = Cert.Spec.sum (V c main_arg0) := by
  obtain ⟨u, v, rfl⟩ : ∃ (u v : Fin 1), j = ix2 u v := ⟨j 0, j 1, eq_ix2 j⟩
  have hN : cfg1.N = 8 := N_1
  rw [accAt_apply V c u v 7 h]
  unfold Cert.Spec.sum
  refine Eq.trans ?_ (sum_idx2 (n0 := 4096) (n1 := 8192) (xarr V c)).symm
  rw [← sum_strips (fun i => ∑ k : Fin 8192, xarr V c (ix2 i k)), Finset.sum_range]
  refine Finset.sum_congr rfl fun t _ => ?_
  unfold stripTotal
  rw [dif_pos (by omega)]
  refine Finset.sum_congr rfl fun r _ => Finset.sum_congr rfl fun k _ => ?_
  exact xstrip_apply V c ⟨t.val, by omega⟩ r k (stripRow t r) rfl

/-! ## The result array after the region -/

/-- The one write-back, at the last point, writes the total: the result's one 1 × 1 block is the whole array. -/
theorem flushed_total (c : Dev nD) (t : Fin cfg1.N) (hf : (cfg1.win 1).flush t = true) :
    (dat1 V c).flushed 1 t
      = ((cfg1.win 1).blk t).view.read (Elt Ideal) (fun _ => Cert.Spec.sum (V c main_arg0)) := by
  have hN : cfg1.N = 8 := N_1
  have h7 : t.val = 7 := by have := (flush1_1 t).mp hf; have := t.isLt; omega
  obtain rfl : t = t1_7 := Fin.ext h7
  show (cfg1.win 1).cut (grid1.coords t1_7) ((dat1 V c).after 1 t1_7) = _
  rw [after1_1]
  funext j
  rw [View.read_apply]
  exact accAt_last V c _ _

/-- After the region the 1 × 1 result holds, at its one index, the sum of all entries of the input. -/
theorem arr_total (c : Dev nD) :
    (dat1 (F := Ideal) V c).arrAt 1 cfg1.N = fun _ => Cert.Spec.sum (V c main_arg0) :=
  (dat1 V c).arrAt_eq_of_cover 1 (fun _ => Cert.Spec.sum (V c main_arg0)) (flushed_total V c) fun i =>
    ⟨t1_7, (flush1_1 t1_7).mpr rfl, by
      show i ∈ ((View.whole main_v1).slice (win1_1.rect t1_7)).set
      rw [View.set_slice_whole, Rect.mem_set_unit]
      intro a
      have h0 : (i 0 : Nat) < 1 := (i 0).isLt
      have h1 : (i 1 : Nat) < 1 := (i 1).isLt
      match a with
      | ⟨0, _⟩ =>
        show win1_1.index t1_7 0 * win1_1.size 0 ≤ (i 0 : Nat)
          ∧ (i 0 : Nat) < win1_1.index t1_7 0 * win1_1.size 0 + win1_1.xsize (grid1.coords t1_7) 0
        rw [show win1_1.index t1_7 0 * win1_1.size 0 = 0 from by decide +kernel,
          show win1_1.xsize (grid1.coords t1_7) 0 = 1 from by decide +kernel]
        omega
      | ⟨1, _⟩ =>
        show win1_1.index t1_7 1 * win1_1.size 1 ≤ (i 1 : Nat)
          ∧ (i 1 : Nat) < win1_1.index t1_7 1 * win1_1.size 1 + win1_1.xsize (grid1.coords t1_7) 1
        rw [show win1_1.index t1_7 1 * win1_1.size 1 = 0 from by decide +kernel,
          show win1_1.xsize (grid1.coords t1_7) 1 = 1 from by decide +kernel]
        omega⟩

end Cert.KernelIdeal.Hand

end
-- ==== Proof.Value.Reference.lean ====
/- The reference program's five results, read off its run: each is the specification's function of the input. The four
   elementwise results are an operation of the input's entry and a broadcast constant, entry by entry; the last is the host's
   sum over both axes from zero, which over the extended reals is zero plus the sum of all entries. -/
import proofs.«121390_j73667279061090_1_alg».proof.Proof.Gen.ReferenceIdeal.Run
import proofs.«121390_j73667279061090_1_alg».proof.Proof.Gen.ReferenceIdeal.Read
import proofs.«121390_j73667279061090_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic

/-- `x + 1`: the add of the input and the broadcast word of 1.0. -/
theorem ref_plusOne (x : (⟨S4096x8192, .f32⟩ : BufTy).Contents (Elt Ideal)) :
    addf (F := Ideal) x (broadcastInDim S4096x8192 ![] bcast_S_S4096x8192 (constant (F := Ideal) S_ .f32 0x3F800000#32)) = Cert.Spec.plusOne x := by
  rw [val_main_v1_eq]
  funext i
  rw [val_main_v1_apply, val_main_v0_apply, val_main_cst_apply]
  rfl

/-- `x - 1`. -/
theorem ref_minusOne (x : (⟨S4096x8192, .f32⟩ : BufTy).Contents (Elt Ideal)) :
    subf (F := Ideal) x (broadcastInDim S4096x8192 ![] bcast_S_S4096x8192 (constant (F := Ideal) S_ .f32 0x3F800000#32)) = Cert.Spec.minusOne x := by
  rw [val_main_v3_eq]
  funext i
  rw [val_main_v3_apply, val_main_v2_apply, val_main_cst_0_apply]
  rfl

/-- `x · 2`. -/
theorem ref_doubled (x : (⟨S4096x8192, .f32⟩ : BufTy).Contents (Elt Ideal)) :
    mulf (F := Ideal) x (broadcastInDim S4096x8192 ![] bcast_S_S4096x8192 (constant (F := Ideal) S_ .f32 0x40000000#32)) = Cert.Spec.doubled x := by
  rw [val_main_v5_eq]
  funext i
  rw [val_main_v5_apply, val_main_v4_apply, val_main_cst_1_apply]
  rfl

/-- `x / 2`: the host's division is the extended reals' division the specification names. -/
theorem ref_halved (x : (⟨S4096x8192, .f32⟩ : BufTy).Contents (Elt Ideal)) :
    Host.divf (F := Ideal) x (broadcastInDim S4096x8192 ![] bcast_S_S4096x8192 (constant (F := Ideal) S_ .f32 0x40000000#32)) = Cert.Spec.halved x := by
  rw [val_main_v7_eq]
  funext i
  rw [val_main_v7_apply, val_main_v6_apply, val_main_cst_2_apply]
  rfl

/-- The total: zero plus the sum of all entries. -/
theorem ref_total (x : (⟨S4096x8192, .f32⟩ : BufTy).Contents (Elt Ideal)) :
    Host.reduceAdd (F := Ideal) x (constant (F := Ideal) S_ .f32 0x00000000#32) reducesTo_S4096x8192_S_d0_1 h_S_ = Cert.Spec.total x := by
  rw [val_main_v8_eq]
  funext i
  rw [val_main_v8_apply, val_main_cst_3_apply]
  show FloatOps.ofBits (F := Ideal) .f32 0x00000000#32 + _ = _
  rw [Ideal.ofBits_def, Ideal.ofBits_zero_f32, zero_add]
  rfl

end Cert.ReferenceIdeal.RefValue

end
-- ==== Proof.lean ====
/- The proof of `Cert.Claim`: the kernel program (as printed, and idealized) and the jnp reference compute, of one
   4096 × 8192 input `x`, the arrays `x + 1`, `x - 1`, `x · 2`, `x / 2` and the sum of all entries of `x`.
   Frames: each kernel program runs as two kernel regions and a host reshape, and one launch over those three items ends with
   every unscoped buffer at named contents, the argument's its launch contents (Proof/Kernel/Whole.lean at the word level,
   Proof/KernelIdeal/Whole.lean idealized — one text, stated for any reading of the floats); the reference is host operations
   only, and its frame is its run with the results dropped. The ideal pass rewrote nothing, so `preserves` is `True`.
   Values, over the extended reals: the first region's 64 tiles written back tile each result array with the input's tile
   plus one, minus one, doubled, halved (Proof/Value/Tiles.lean); the second region's accumulator adds the strips' totals
   point after point and its last point's copy is the sum of all entries (Proof/Value/Total.lean), which the host reshapes
   to a scalar; the reference's five results are the same functions of the input (Proof/Value/Reference.lean), its sum
   grouped differently, which in a commutative monoid is the same sum. -/
import proofs.«121390_j73667279061090_1_alg».proof.Defs
import proofs.«121390_j73667279061090_1_alg».proof.Proof.Gen.Kernel
import proofs.«121390_j73667279061090_1_alg».proof.Proof.Gen.KernelIdeal
import proofs.«121390_j73667279061090_1_alg».proof.Proof.Gen.ReferenceIdeal
import proofs.«121390_j73667279061090_1_alg».proof.Proof.Gen.Pre_finite_inputs
import proofs.«121390_j73667279061090_1_alg».proof.Proof.Kernel.Whole
import proofs.«121390_j73667279061090_1_alg».proof.Proof.KernelIdeal.Whole
import proofs.«121390_j73667279061090_1_alg».proof.Proof.Value.Tiles
import proofs.«121390_j73667279061090_1_alg».proof.Proof.Value.Total
import proofs.«121390_j73667279061090_1_alg».proof.Proof.Value.Reference

noncomputable section

namespace Cert.Proof

open Idealize.ShloMosaic Idealize.ShloMosaic.TcCoe Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2.2.2.2) (Cert.ReferenceIdeal.Value.run (F := Ideal) m ρ)

/-! ## The values -/

/-- A 1 × 1 array with one value everywhere, reshaped to a scalar, is the scalar array with that value. -/
theorem reshape_const (s : EReal) :
    shapeCast Cert.KernelIdeal.S_ (fun _ : Cert.KernelIdeal.S1x1.Idx => s) Cert.KernelIdeal.Gen.shapeCasts_S1x1_S_ = fun _ => s := by
  funext i
  rfl

open Cert.KernelIdeal Cert.KernelIdeal.Gen Cert.KernelIdeal.Hand in
/-- Both idealized programs end, from memories that agree on the input, with the specification's five results. -/
theorem algebraic : Cert.algebraic_KernelIdeal_ReferenceIdeal := by
  intro m ρ m' ρ' _ hagree
  refine ⟨fun c => Cert.Spec.plusOne (m ((c.tc : Thread nD τ).loc main_arg0)),
    fun c => Cert.Spec.minusOne (m ((c.tc : Thread nD τ).loc main_arg0)),
    fun c => Cert.Spec.doubled (m ((c.tc : Thread nD τ).loc main_arg0)),
    fun c => Cert.Spec.halved (m ((c.tc : Thread nD τ).loc main_arg0)),
    fun c => Cert.Spec.total (m ((c.tc : Thread nD τ).loc main_arg0)), ?_, ?_⟩
  · refine (θ_run Cert.KernelIdeal.defs _ _).mono (fun r h c => ?_) (run_main (F := Ideal) m ρ)
    refine ⟨?_, ?_, ?_, ?_, ?_, ?_⟩
    · exact (h c _ (mem_uc main_v0_0 (by decide))).trans ((W3_main_v0_0 m ρ c).trans (arr_plusOne (E0 m ρ) c))
    · exact (h c _ (mem_uc main_v0_1 (by decide))).trans ((W3_main_v0_1 m ρ c).trans (arr_minusOne (E0 m ρ) c))
    · exact (h c _ (mem_uc main_v0_2 (by decide))).trans ((W3_main_v0_2 m ρ c).trans (arr_doubled (E0 m ρ) c))
    · exact (h c _ (mem_uc main_v0_3 (by decide))).trans ((W3_main_v0_3 m ρ c).trans (arr_halved (E0 m ρ) c))
    · refine (h c _ (mem_uc main_v2 (by decide))).trans ((W3_main_v2 m ρ c).trans ?_)
      rw [arr_total (E1 m ρ) c, E1_main_arg0 m ρ c]
      exact reshape_const _
    · exact (h c _ (mem_uc main_arg0 (by decide))).trans (W3_main_arg0 m ρ c)
  · refine (θ_run Cert.ReferenceIdeal.defs _ _).mono (fun r h c => ?_) (Cert.ReferenceIdeal.Value.run (F := Ideal) m' ρ')
    obtain ⟨h1, h3, h5, h7, h8, ha⟩ := h c
    refine ⟨h1.trans ?_, h3.trans ?_, h5.trans ?_, h7.trans ?_, h8.trans ?_, ha⟩
    · rw [hagree c]; exact Cert.ReferenceIdeal.RefValue.ref_plusOne _
    · rw [hagree c]; exact Cert.ReferenceIdeal.RefValue.ref_minusOne _
    · rw [hagree c]; exact Cert.ReferenceIdeal.RefValue.ref_doubled _
    · rw [hagree c]; exact Cert.ReferenceIdeal.RefValue.ref_halved _
    · rw [hagree c]; exact Cert.ReferenceIdeal.RefValue.ref_total _

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
